-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8x512 : Shape := ⟨3, ![8192, 8, 512]⟩
abbrev S8192x8x1 : Shape := ⟨3, ![8192, 8, 1]⟩
abbrev S512x1536 : Shape := ⟨2, ![512, 1536]⟩
abbrev S512x512 : Shape := ⟨2, ![512, 512]⟩
abbrev S1024x1536 : Shape := ⟨2, ![1024, 1536]⟩
abbrev S1024x512 : Shape := ⟨2, ![1024, 512]⟩
abbrev S1536 : Shape := ⟨1, ![1536]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8x512 : S_.BroadcastsInDim S8192x8x512 (![] : Fin 0 → Fin S8192x8x512.rank)
  reducesTo_S8192x8x512_S_d0_1_2 : S8192x8x512.ReducesTo [0, 1, 2] S_
  bcast_S_S8192x8x1 : S_.BroadcastsInDim S8192x8x1 (![] : Fin 0 → Fin S8192x8x1.rank)
  reducesTo_S8192x8x1_S_d0_1_2 : S8192x8x1.ReducesTo [0, 1, 2] S_
  bcast_S_S512x1536 : S_.BroadcastsInDim S512x1536 (![] : Fin 0 → Fin S512x1536.rank)
  reducesTo_S512x1536_S_d0_1 : S512x1536.ReducesTo [0, 1] S_
  bcast_S_S512x512 : S_.BroadcastsInDim S512x512 (![] : Fin 0 → Fin S512x512.rank)
  reducesTo_S512x512_S_d0_1 : S512x512.ReducesTo [0, 1] S_
  bcast_S_S1024x1536 : S_.BroadcastsInDim S1024x1536 (![] : Fin 0 → Fin S1024x1536.rank)
  reducesTo_S1024x1536_S_d0_1 : S1024x1536.ReducesTo [0, 1] S_
  bcast_S_S1024x512 : S_.BroadcastsInDim S1024x512 (![] : Fin 0 → Fin S1024x512.rank)
  reducesTo_S1024x512_S_d0_1 : S1024x512.ReducesTo [0, 1] S_
  bcast_S_S1536 : S_.BroadcastsInDim S1536 (![] : Fin 0 → Fin S1536.rank)
  reducesTo_S1536_S_d0 : S1536.ReducesTo [0] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S1024x512 .f32) (main_arg8 : FVec F S1536 .f32) (main_arg9 : FVec F S512 .f32) (main_v33 : IVec S_ 1) : IVec S_ 1 :=
  let main_v34 : FVec F S1024x512 .f32 := Host.absf main_arg7
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S1536 .f32 := Host.absf main_arg8
  let main_cst_14 : FVec F S_ .f32 := constant S_ .f32 0x7F800000#32
  let main_v40 : FVec F S1536 .f32 := broadcastInDim S1536 ![] bcast_S_S1536 main_cst_14
  let main_v41 : IVec S1536 1 := cmpf .olt main_v39 main_v40
  let main_c_15 : IVec S_ 1 := constantI S_ 1 1#1
  let main_v42 : IVec S_ 1 := (fun x v => Host.reduce IntOp.andi x v reducesTo_S1536_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg4 : FVec F S512x1536 .f32) (main_arg5 : FVec F S512x512 .f32) (main_arg6 : FVec F S1024x1536 .f32) (main_arg7 : FVec F S1024x512 .f32) (main_arg8 : FVec F S1536 .f32) (main_arg9 : FVec F S512 .f32) (main_v13 : IVec S_ 1) (main_v16 : IVec S8192x8x1 1) : IVec S_ 1 :=
  let main_c_5 : IVec S_ 1 := constantI S_ 1 1#1
  let main_v17 : IVec S_ 1 := (fun x v => Host.reduce IntOp.andi x v reducesTo_S8192x8x1_S_d0_1_2 h_S_) main_v16 main_c_5
  let main_v18 : IVec S_ 1 := andi main_v13 main_v17
  let main_v19 : FVec F S512x1536 .f32 := Host.absf main_arg4
  let main_cst_6 : FVec F S_ .f32 := constant S_ .f32 0x7F800000#32
  let main_v20 : FVec F S512x1536 .f32 := broadcastInDim S512x1536 ![] bcast_S_S512x1536 main_cst_6
  let main_v21 : IVec S512x1536 1 := cmpf .olt main_v19 main_v20
  let main_c_7 : IVec S_ 1 := constantI S_ 1 1#1
  let main_v22 : IVec S_ 1 := (fun x v => Host.reduce IntOp.andi x v reducesTo_S512x1536_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S1024x1536 .f32 := Host.absf main_arg6
  let main_cst_10 : FVec F S_ .f32 := constant S_ .f32 0x7F800000#32
  let main_v30 : FVec F S1024x1536 .f32 := broadcastInDim S1024x1536 ![] bcast_S_S1024x1536 main_cst_10
  let main_v31 : IVec S1024x1536 1 := cmpf .olt main_v29 main_v30
  let main_c_11 : IVec S_ 1 := constantI S_ 1 1#1
  let main_v32 : IVec S_ 1 := (fun x v => Host.reduce IntOp.andi x v reducesTo_S1024x1536_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x512 .f32) (main_arg1 : FVec F S8192x8x512 .f32) (main_arg2 : FVec F S8192x8x512 .f32) (main_arg3 : FVec F S8192x8x1 .f32) (main_arg4 : FVec F S512x1536 .f32) (main_arg5 : FVec F S512x512 .f32) (main_arg6 : FVec F S1024x1536 .f32) (main_arg7 : FVec F S1024x512 .f32) (main_arg8 : FVec F S1536 .f32) (main_arg9 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8x512 .f32 := Host.absf main_arg1
  let main_cst_0 : FVec F S_ .f32 := constant S_ .f32 0x7F800000#32
  let main_v5 : FVec F S8192x8x512 .f32 := broadcastInDim S8192x8x512 ![] bcast_S_S8192x8x512 main_cst_0
  let main_v6 : IVec S8192x8x512 1 := cmpf .olt main_v4 main_v5
  let main_c_1 : IVec S_ 1 := constantI S_ 1 1#1
  let main_v7 : IVec S_ 1 := (fun x v => Host.reduce IntOp.andi x v reducesTo_S8192x8x512_S_d0_1_2 h_S_) main_v6 main_c_1
  let main_v8 : IVec S_ 1 := andi main_v3 main_v7
  let main_v9 : FVec F S8192x8x512 .f32 := Host.absf main_arg2
  let main_cst_2 : FVec F S_ .f32 := constant S_ .f32 0x7F800000#32
  let main_v10 : FVec F S8192x8x512 .f32 := broadcastInDim S8192x8x512 ![] bcast_S_S8192x8x512 main_cst_2
  let main_v11 : IVec S8192x8x512 1 := cmpf .olt main_v9 main_v10
  let main_c_3 : IVec S_ 1 := constantI S_ 1 1#1
  let main_v12 : IVec S_ 1 := (fun x v => Host.reduce IntOp.andi x v reducesTo_S8192x8x512_S_d0_1_2 h_S_) main_v11 main_c_3
  let main_v13 : IVec S_ 1 := andi main_v8 main_v12
  let main_v14 : FVec F S8192x8x1 .f32 := Host.absf main_arg3
  let main_cst_4 : FVec F S_ .f32 := constant S_ .f32 0x7F800000#32
  let main_v15 : FVec F S8192x8x1 .f32 := broadcastInDim S8192x8x1 ![] bcast_S_S8192x8x1 main_cst_4
  let main_v16 : IVec S8192x8x1 1 := cmpf .olt main_v14 main_v15
  fn_part1 (F := F) main_arg4 main_arg5 main_arg6 main_arg7 main_arg8 main_arg9 main_v13 main_v16
-- ==== Kernel.lean ====
abbrev S8192x512 : Shape := ⟨2, ![8192, 512]⟩
abbrev S8192x8x512 : Shape := ⟨3, ![8192, 8, 512]⟩
abbrev S8192x8x1 : Shape := ⟨3, ![8192, 8, 1]⟩
abbrev S512x1536 : Shape := ⟨2, ![512, 1536]⟩
abbrev S512x512 : Shape := ⟨2, ![512, 512]⟩
abbrev S1024x1536 : Shape := ⟨2, ![1024, 1536]⟩
abbrev S1024x512 : Shape := ⟨2, ![1024, 512]⟩
abbrev S1536 : Shape := ⟨1, ![1536]⟩
abbrev S512 : Shape := ⟨1, ![512]⟩
abbrev S128x512 : Shape := ⟨2, ![128, 512]⟩
abbrev S128x8x512 : Shape := ⟨3, ![128, 8, 512]⟩
abbrev S128x8x1 : Shape := ⟨3, ![128, 8, 1]⟩
abbrev S128x1536 : Shape := ⟨2, ![128, 1536]⟩
abbrev S128x1x512 : Shape := ⟨3, ![128, 1, 512]⟩
abbrev S128x1x1 : Shape := ⟨3, ![128, 1, 1]⟩
abbrev S128x1 : Shape := ⟨2, ![128, 1]⟩
abbrev S128x1024 : Shape := ⟨2, ![128, 1024]⟩
abbrev S1x512 : Shape := ⟨2, ![1, 512]⟩
abbrev S1x1536 : Shape := ⟨2, ![1, 1536]⟩

abbrev nBuf : Space → Nat
  | .hbm => 16
  | .vmem => 18
  | .smem => 0
  | _ => 0

abbrev bufTy : (tb : Table) → Fin (tcTables nBuf tb) → BufTy
  | .hbm, ⟨0, _⟩ => ⟨S8192x512, .f32⟩
  | .hbm, ⟨1, _⟩ => ⟨S8192x8x512, .f32⟩
  | .hbm, ⟨2, _⟩ => ⟨S8192x8x512, .f32⟩
  | .hbm, ⟨3, _⟩ => ⟨S8192x8x1, .f32⟩
  | .hbm, ⟨4, _⟩ => ⟨S512x1536, .f32⟩
  | .hbm, ⟨5, _⟩ => ⟨S512x512, .f32⟩
  | .hbm, ⟨6, _⟩ => ⟨S1024x1536, .f32⟩
  | .hbm, ⟨7, _⟩ => ⟨S1024x512, .f32⟩
  | .hbm, ⟨8, _⟩ => ⟨S1536, .f32⟩
  | .hbm, ⟨9, _⟩ => ⟨S512, .f32⟩
  | .hbm, ⟨10, _⟩ => ⟨S512x1536, .bf16⟩
  | .hbm, ⟨11, _⟩ => ⟨S512x512, .bf16⟩
  | .hbm, ⟨12, _⟩ => ⟨S1024x1536, .bf16⟩
  | .hbm, ⟨13, _⟩ => ⟨S1024x512, .bf16⟩
  | .hbm, ⟨14, _⟩ => ⟨S8192x512, .f32⟩
  | .hbm, ⟨15, _⟩ => ⟨S8192x512, .f32⟩
  | .local _ .vmem, ⟨0, _⟩ => ⟨S128x512, .f32⟩
  | .local _ .vmem, ⟨1, _⟩ => ⟨S128x512, .f32⟩
  | .local _ .vmem, ⟨2, _⟩ => ⟨S128x8x512, .f32⟩
  | .local _ .vmem, ⟨3, _⟩ => ⟨S128x8x512, .f32⟩
  | .local _ .vmem, ⟨4, _⟩ => ⟨S128x8x512, .f32⟩
  | .local _ .vmem, ⟨5, _⟩ => ⟨S128x8x512, .f32⟩
  | .local _ .vmem, ⟨6, _⟩ => ⟨S128x8x1, .f32⟩
  | .local _ .vmem, ⟨7, _⟩ => ⟨S128x8x1, .f32⟩
  | .local _ .vmem, ⟨8, _⟩ => ⟨S512x1536, .bf16⟩
  | .local _ .vmem, ⟨9, _⟩ => ⟨S512x512, .bf16⟩
  | .local _ .vmem, ⟨10, _⟩ => ⟨S1024x1536, .bf16⟩
  | .local _ .vmem, ⟨11, _⟩ => ⟨S1024x512, .bf16⟩
  | .local _ .vmem, ⟨12, _⟩ => ⟨S1536, .f32⟩
  | .local _ .vmem, ⟨13, _⟩ => ⟨S512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1024x1536_S1024x1536_0_0 : ∀ a, (![0, 0] : Fin 2 → Nat) a + S1024x1536.size a ≤ S1024x1536.size a
  h_S1024x1536 : 0 < S1024x1536.numel
  shapeCasts_S1024x1536_S1024x1536 : S1024x1536.ShapeCasts S1024x1536
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1536_S1536_0 : ∀ a, (![0] : Fin 1 → Nat) a + S1536.size a ≤ S1536.size a
  h_S1536 : 0 < S1536.numel
  inb_S512_S512_0 : ∀ a, (![0] : Fin 1 → Nat) a + S512.size a ≤ S512.size a
  h_S512 : 0 < S512.numel
  inb_S128x8x512_S128x8x512_0_0_0 : ∀ a, (![0, 0, 0] : Fin 3 → Nat) a + S128x8x512.size a ≤ S128x8x512.size a
  h_S128x8x512 : 0 < S128x8x512.numel
  inb_S128x8x1_S128x8x1_0_0_0 : ∀ a, (![0, 0, 0] : Fin 3 → Nat) a + S128x8x1.size a ≤ S128x8x1.size a
  h_S128x8x1 : 0 < S128x8x1.numel
  slices_S128x8x512_o0_0_0_S128x1x512 : S128x8x512.Slices ![0, 0, 0] S128x1x512
  shapeCasts_S128x1x512_S128x512 : S128x1x512.ShapeCasts S128x512
  slices_S128x8x1_o0_0_0_S128x1x1 : S128x8x1.Slices ![0, 0, 0] S128x1x1
  shapeCasts_S128x1x1_S128x1 : S128x1x1.ShapeCasts S128x1
  broadcasts_S128x1_S128x512 : S128x1.Broadcasts S128x512
  concatenates_S128x512_S128x512_S128x1024_d1 : Shape.Concatenates [S128x512, S128x512] S128x1024 1
  shapeCasts_S512_S1x512 : S512.ShapeCasts S1x512
  broadcasts_S1x512_S128x512 : S1x512.Broadcasts S128x512
  slices_S128x8x512_o0_1_0_S128x1x512 : S128x8x512.Slices ![0, 1, 0] S128x1x512
  slices_S128x8x1_o0_1_0_S128x1x1 : S128x8x1.Slices ![0, 1, 0] S128x1x1
  slices_S128x8x512_o0_2_0_S128x1x512 : S128x8x512.Slices ![0, 2, 0] S128x1x512
  slices_S128x8x1_o0_2_0_S128x1x1 : S128x8x1.Slices ![0, 2, 0] S128x1x1
  slices_S128x8x512_o0_3_0_S128x1x512 : S128x8x512.Slices ![0, 3, 0] S128x1x512
  slices_S128x8x1_o0_3_0_S128x1x1 : S128x8x1.Slices ![0, 3, 0] S128x1x1
  slices_S128x8x512_o0_4_0_S128x1x512 : S128x8x512.Slices ![0, 4, 0] S128x1x512
  slices_S128x8x1_o0_4_0_S128x1x1 : S128x8x1.Slices ![0, 4, 0] S128x1x1
  slices_S128x8x512_o0_5_0_S128x1x512 : S128x8x512.Slices ![0, 5, 0] S128x1x512
  slices_S128x8x1_o0_5_0_S128x1x1 : S128x8x1.Slices ![0, 5, 0] S128x1x1
  slices_S128x8x512_o0_6_0_S128x1x512 : S128x8x512.Slices ![0, 6, 0] S128x1x512
  slices_S128x8x1_o0_6_0_S128x1x1 : S128x8x1.Slices ![0, 6, 0] S128x1x1
  slices_S128x8x512_o0_7_0_S128x1x512 : S128x8x512.Slices ![0, 7, 0] S128x1x512
  slices_S128x8x1_o0_7_0_S128x1x1 : S128x8x1.Slices ![0, 7, 0] S128x1x1
  shapeCasts_S1536_S1x1536 : S1536.ShapeCasts S1x1536
  broadcasts_S1x1536_S128x1536 : S1x1536.Broadcasts S128x1536
  slices_S128x1536_o0_0_S128x512 : S128x1536.Slices ![0, 0] S128x512
  slices_S128x1536_o0_512_S128x512 : S128x1536.Slices ![0, 512] S128x512
  slices_S128x1536_o0_1024_S128x512 : S128x1536.Slices ![0, 1024] S128x512
  dot_S128x512_S512x512_S128x512_1_0_0_1_n_n_wf : DotDims.WF S128x512 S512x512 S128x512 [1] [0] [0] [1] [] []
  dot_S128x512_S512x1536_S128x1536_1_0_0_1_n_n_wf : DotDims.WF S128x512 S512x1536 S128x1536 [1] [0] [0] [1] [] []
  dot_S128x1024_S1024x1536_S128x1536_1_0_0_1_n_n_wf : DotDims.WF S128x1024 S1024x1536 S128x1536 [1] [0] [0] [1] [] []
  dot_S128x1024_S1024x512_S128x512_1_0_0_1_n_n_wf : DotDims.WF S128x1024 S1024x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S8192x512.size a
  hwx0_0 : ∀ i : grid0.Coords, EltTy.bits .f32 = 32 ∨ (Rect.block (s := S8192x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8x512.size a ≤ S8192x8x512.size a
  hwx0_1 : ∀ i : grid0.Coords, EltTy.bits .f32 = 32 ∨ (Rect.block (s := S8192x8x512) S128x8x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8x512.size a ≤ S8192x8x512.size a
  hwx0_2 : ∀ i : grid0.Coords, EltTy.bits .f32 = 32 ∨ (Rect.block (s := S8192x8x512) S128x8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x8x1.size a ≤ S8192x8x1.size a
  hwx0_3 : ∀ i : grid0.Coords, EltTy.bits .f32 = 32 ∨ (Rect.block (s := S8192x8x1) S128x8x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1536.size a ≤ S512x1536.size a
  hwx0_4 : ∀ i : grid0.Coords, EltTy.bits .bf16 = 32 ∨ (Rect.block (s := S512x1536) S512x1536.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1536.size a ≤ S1024x1536.size a
  hwx0_6 : ∀ i : grid0.Coords, EltTy.bits .bf16 = 32 ∨ (Rect.block (s := S1024x1536) S1024x1536.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S1024x512.size a
  hwx0_7 : ∀ i : grid0.Coords, EltTy.bits .bf16 = 32 ∨ (Rect.block (s := S1024x512) S1024x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1536.size a ≤ S1536.size a
  hwx0_8 : ∀ i : grid0.Coords, EltTy.bits .f32 = 32 ∨ (Rect.block (s := S1536) S1536.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x512.size a ≤ S8192x512.size a
  hwx0_10 : ∀ i : grid0.Coords, EltTy.bits .f32 = 32 ∨ (Rect.block (s := S8192x512) S128x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x512.size a ≤ S8192x512.size a
  hwx0_11 : ∀ i : grid0.Coords, EltTy.bits .f32 = 32 ∨ (Rect.block (s := S8192x512) S128x512.size (cc0_transform_11 i) (hinb0_11 i)).WholeWords (EltTy.packing .f32)

variable [Facts₀]

def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x512_S512x1536_S128x1536_1_0_0_1_n_n : DotDims S128x512 S512x1536 S128x1536 where
  lhsContracting := [1]
  rhsContracting := [0]
  lhsNonContracting := [0]
  rhsNonContracting := [1]
  lhsBatch := []
  rhsBatch := []
  wf := dot_S128x512_S512x1536_S128x1536_1_0_0_1_n_n_wf
def dot_S128x1024_S1024x1536_S128x1536_1_0_0_1_n_n : DotDims S128x1024 S1024x1536 S128x1536 where
  lhsContracting := [1]
  rhsContracting := [0]
  lhsNonContracting := [0]
  rhsNonContracting := [1]
  lhsBatch := []
  rhsBatch := []
  wf := dot_S128x1024_S1024x1536_S128x1536_1_0_0_1_n_n_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x8x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x1536.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1536.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4_0) S128x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_1) S128x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x8x512 : Shape := ⟨3, ![8192, 8, 512]⟩
abbrev S8192x8x1 : Shape := ⟨3, ![8192, 8, 1]⟩
abbrev S512x1536 : Shape := ⟨2, ![512, 1536]⟩
abbrev S512x512 : Shape := ⟨2, ![512, 512]⟩
abbrev S1024x1536 : Shape := ⟨2, ![1024, 1536]⟩
abbrev S1024x512 : Shape := ⟨2, ![1024, 512]⟩
abbrev S1536 : Shape := ⟨1, ![1536]⟩
abbrev S512 : Shape := ⟨1, ![512]⟩
abbrev S8192x1536 : Shape := ⟨2, ![8192, 1536]⟩
abbrev S_ : Shape := ⟨0, ![]⟩
abbrev S8192x8x1024 : Shape := ⟨3, ![8192, 8, 1024]⟩
abbrev S8192x1024 : Shape := ⟨2, ![8192, 1024]⟩
abbrev S8192x1x512 : Shape := ⟨3, ![8192, 1, 512]⟩
abbrev S1x1x512 : Shape := ⟨3, ![1, 1, 512]⟩
abbrev S1x1536 : Shape := ⟨2, ![1, 1536]⟩

abbrev nBuf : Space → Nat
  | .hbm => 69
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8x512, .f32⟩
  | .hbm, ⟨2, _⟩ => ⟨S8192x8x512, .f32⟩
  | .hbm, ⟨3, _⟩ => ⟨S8192x8x1, .f32⟩
  | .hbm, ⟨4, _⟩ => ⟨S512x1536, .f32⟩
  | .hbm, ⟨5, _⟩ => ⟨S512x512, .f32⟩
  | .hbm, ⟨6, _⟩ => ⟨S1024x1536, .f32⟩
  | .hbm, ⟨7, _⟩ => ⟨S1024x512, .f32⟩
  | .hbm, ⟨8, _⟩ => ⟨S1536, .f32⟩
  | .hbm, ⟨9, _⟩ => ⟨S512, .f32⟩
  | .hbm, ⟨10, _⟩ => ⟨S8192x512, .f32⟩
  | .hbm, ⟨11, _⟩ => ⟨S8192x1536, .f32⟩
  | .hbm, ⟨12, _⟩ => ⟨S8192x8x512, .f32⟩
  | .hbm, ⟨13, _⟩ => ⟨S8192x8x512, .f32⟩
  | .hbm, ⟨14, _⟩ => ⟨S_, .f32⟩
  | .hbm, ⟨15, _⟩ => ⟨S8192x8x1, .f32⟩
  | .hbm, ⟨16, _⟩ => ⟨S8192x8x1, .f32⟩
  | .hbm, ⟨17, _⟩ => ⟨S8192x8x512, .f32⟩
  | .hbm, ⟨18, _⟩ => ⟨S8192x8x512, .f32⟩
  | .hbm, ⟨19, _⟩ => ⟨S8192x8x1024, .f32⟩
  | .hbm, ⟨20, _⟩ => ⟨S_, .f32⟩
  | .hbm, ⟨21, _⟩ => ⟨S8192x1024, .f32⟩
  | .hbm, ⟨22, _⟩ => ⟨S8192x1536, .f32⟩
  | .hbm, ⟨23, _⟩ => ⟨S8192x8x512, .f32⟩
  | .hbm, ⟨24, _⟩ => ⟨S8192x1x512, .f32⟩
  | .hbm, ⟨25, _⟩ => ⟨S8192x8x512, .f32⟩
  | .hbm, ⟨26, _⟩ => ⟨S8192x8x512, .f32⟩
  | .hbm, ⟨27, _⟩ => ⟨S1x1x512, .f32⟩
  | .hbm, ⟨28, _⟩ => ⟨S8192x8x512, .f32⟩
  | .hbm, ⟨29, _⟩ => ⟨S8192x8x512, .f32⟩
  | .hbm, ⟨30, _⟩ => ⟨S8192x8x512, .f32⟩
  | .hbm, ⟨31, _⟩ => ⟨S8192x8x512, .f32⟩
  | .hbm, ⟨32, _⟩ => ⟨S_, .f32⟩
  | .hbm, ⟨33, _⟩ => ⟨S8192x8x512, .f32⟩
  | .hbm, ⟨34, _⟩ => ⟨S8192x8x512, .f32⟩
  | .hbm, ⟨35, _⟩ => ⟨S_, .f32⟩
  | .hbm, ⟨36, _⟩ => ⟨S8192x8x512, .f32⟩
  | .hbm, ⟨37, _⟩ => ⟨S8192x8x512, .f32⟩
  | .hbm, ⟨38, _⟩ => ⟨S8192x8x512, .f32⟩
  | .hbm, ⟨39, _⟩ => ⟨S_, .f32⟩
  | .hbm, ⟨40, _⟩ => ⟨S8192x512, .f32⟩
  | .hbm, ⟨41, _⟩ => ⟨S8192x1536, .f32⟩
  | .hbm, ⟨42, _⟩ => ⟨S1x1536, .f32⟩
  | .hbm, ⟨43, _⟩ => ⟨S8192x1536, .f32⟩
  | .hbm, ⟨44, _⟩ => ⟨S8192x1536, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S_, .f32⟩
  | .hbm, ⟨51, _⟩ => ⟨S8192x512, .f32⟩
  | .hbm, ⟨52, _⟩ => ⟨S8192x512, .f32⟩
  | .hbm, ⟨53, _⟩ => ⟨S_, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S_, .f32⟩
  | .hbm, ⟨59, _⟩ => ⟨S8192x512, .f32⟩
  | .hbm, ⟨60, _⟩ => ⟨S8192x512, .f32⟩
  | .hbm, ⟨61, _⟩ => ⟨S_, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S8192x512, .f32⟩
  | .hbm, ⟨68, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  bcast_S8192x8x1_S8192x8x512_0_1_2 : S8192x8x1.BroadcastsInDim S8192x8x512 (![0, 1, 2] : Fin 3 → Fin S8192x8x512.rank)
  bcast_S_S8192x8x1 : S_.BroadcastsInDim S8192x8x1 (![] : Fin 0 → Fin S8192x8x1.rank)
  concatenates_S8192x8x512_S8192x8x512_S8192x8x1024_d2 : Shape.Concatenates [S8192x8x512, S8192x8x512] S8192x8x1024 2
  reducesTo_S8192x8x1024_S8192x1024_d1 : S8192x8x1024.ReducesTo [1] S8192x1024
  h_S_ : 0 < S_.numel
  bcast_S8192x512_S8192x1x512_0_2 : S8192x512.BroadcastsInDim S8192x1x512 (![0, 2] : Fin 2 → Fin S8192x1x512.rank)
  bcast_S8192x1x512_S8192x8x512_0_1_2 : S8192x1x512.BroadcastsInDim S8192x8x512 (![0, 1, 2] : Fin 3 → Fin S8192x8x512.rank)
  bcast_S512_S1x1x512_2 : S512.BroadcastsInDim S1x1x512 (![2] : Fin 1 → Fin S1x1x512.rank)
  bcast_S1x1x512_S8192x8x512_0_1_2 : S1x1x512.BroadcastsInDim S8192x8x512 (![0, 1, 2] : Fin 3 → Fin S8192x8x512.rank)
  bcast_S_S8192x8x512 : S_.BroadcastsInDim S8192x8x512 (![] : Fin 0 → Fin S8192x8x512.rank)
  reducesTo_S8192x8x512_S8192x512_d1 : S8192x8x512.ReducesTo [1] S8192x512
  bcast_S1536_S1x1536_1 : S1536.BroadcastsInDim S1x1536 (![1] : Fin 1 → Fin S1x1536.rank)
  bcast_S1x1536_S8192x1536_0_1 : S1x1536.BroadcastsInDim S8192x1536 (![0, 1] : Fin 2 → Fin S8192x1536.rank)
  slices_S8192x1536_S8192x512_0_0 : S8192x1536.Slices ![0, 0] S8192x512
  slices_S8192x1536_S8192x512_0_512 : S8192x1536.Slices ![0, 512] S8192x512
  slices_S8192x1536_S8192x512_0_1024 : S8192x1536.Slices ![0, 1024] S8192x512
  bcast_S_S8192x512 : S_.BroadcastsInDim S8192x512 (![] : Fin 0 → Fin S8192x512.rank)
  dot_S8192x512_S512x512_S8192x512_1_0_0_1_n_n_wf : DotDims.WF S8192x512 S512x512 S8192x512 [1] [0] [0] [1] [] []
  dot_S8192x512_S512x1536_S8192x1536_1_0_0_1_n_n_wf : DotDims.WF S8192x512 S512x1536 S8192x1536 [1] [0] [0] [1] [] []
  dot_S8192x1024_S1024x1536_S8192x1536_1_0_0_1_n_n_wf : DotDims.WF S8192x1024 S1024x1536 S8192x1536 [1] [0] [0] [1] [] []
  dot_S8192x8x1024_S1024x512_S8192x8x512_2_0_01_1_n_n_wf : DotDims.WF S8192x8x1024 S1024x512 S8192x8x512 [2] [0] [0, 1] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x1536_S8192x1536_1_0_0_1_n_n : DotDims S8192x512 S512x1536 S8192x1536 where
  lhsContracting := [1]
  rhsContracting := [0]
  lhsNonContracting := [0]
  rhsNonContracting := [1]
  lhsBatch := []
  rhsBatch := []
  wf := dot_S8192x512_S512x1536_S8192x1536_1_0_0_1_n_n_wf
def dot_S8192x1024_S1024x1536_S8192x1536_1_0_0_1_n_n : DotDims S8192x1024 S1024x1536 S8192x1536 where
  lhsContracting := [1]
  rhsContracting := [0]
  lhsNonContracting := [0]
  rhsNonContracting := [1]
  lhsBatch := []
  rhsBatch := []
  wf := dot_S8192x1024_S1024x1536_S8192x1536_1_0_0_1_n_n_wf
def dot_S8192x8x1024_S1024x512_S8192x8x512_2_0_01_1_n_n : DotDims S8192x8x1024 S1024x512 S8192x8x512 where
  lhsContracting := [2]
  rhsContracting := [0]
  lhsNonContracting := [0, 1]
  rhsNonContracting := [1]
  lhsBatch := []
  rhsBatch := []
  wf := dot_S8192x8x1024_S1024x512_S8192x8x512_2_0_01_1_n_n_wf

class Facts : Prop extends Facts₀ where

variable [Facts]
-- ==== Proof.Spec.lean ====
/-
  The child-sum cell of a tree LSTM with label-routed neighbours, for ONE node, as functions on the extended reals.

  A node has an input row `xr` (512 entries), eight neighbours with hidden rows `hr k` and cell rows `cr k`
  (512 entries each) and one edge label `er k` per neighbour. A neighbour's hidden row is ROUTED into a row of
  1024 entries: the first half carries `(1 - e) · h`, the second half `e · h`. The three gates' pre-activations
  (1536 entries: input, output, update) are the node's projection by `Wiou`, plus the routed rows' projections by
  `Uiou` summed over the neighbours, plus a bias; each neighbour's forget gate is the logistic of the node's
  projection by `Wf` plus that neighbour's routed row projected by `Uf` plus a bias. The new cell is
  `σ(i) · tanh(u) + Σ_k f_k · c_k`, the new hidden state `σ(o) · tanh(cell)`.

  Two spellings of the same row are given. In the first the neighbours' projections are summed AFTER the
  contraction (`Σ_k Σ_d routed k d · U d o`); in the second the routed rows are summed over the neighbours FIRST and
  the sum is contracted once (`Σ_d (Σ_k routed k d) · U d o`). They agree when the labels, the hidden rows and
  `Uiou` are real numbers: a product distributes over a finite sum of reals, which it does not over infinities of
  both signs.
-/
import Idealize.ShloMosaic.PureOps.Ideal
import Mathlib.Algebra.BigOperators.Fin
import Idealize.ShloMosaic.Lib.ValueIdx

noncomputable section

open scoped BigOperators

namespace Cert.TreeCell

open Idealize.ShloMosaic

/-- An extended real that is a real number. -/
def IsReal (x : EReal) : Prop := ∃ r : ℝ, x = (r : EReal)

variable (xr : Fin 512 → EReal) (er : Fin 8 → EReal) (hr cr : Fin 8 → Fin 512 → EReal)
  (Wiou : Fin 512 → Fin 1536 → EReal) (Wf : Fin 512 → Fin 512 → EReal)
  (Uiou : Fin 1024 → Fin 1536 → EReal) (Uf : Fin 1024 → Fin 512 → EReal)
  (biou : Fin 1536 → EReal) (bf : Fin 512 → EReal)

/-- Neighbour `k`'s hidden row routed by its label: entry `d < 512` is `(1 - e_k) · h_k[d]`, entry `d ≥ 512` is
    `e_k · h_k[d - 512]`. -/
def routed (k : Fin 8) (d : Fin 1024) : EReal :=
  if hd : d.val < 512 then (1 - er k) * hr k ⟨d.val, hd⟩ else er k * hr k ⟨d.val - 512, by omega⟩

/-- The gates' pre-activation `o`, the neighbours summed after the contraction. -/
def gates (o : Fin 1536) : EReal :=
  ((∑ q : Fin 512, xr q * Wiou q o) + ∑ k : Fin 8, ∑ d : Fin 1024, routed er hr k d * Uiou d o) + biou o

/-- The same with the routed rows summed over the neighbours first (from zero), then contracted once. -/
def gatesSummedFirst (o : Fin 1536) : EReal :=
  ((∑ q : Fin 512, xr q * Wiou q o) + ∑ d : Fin 1024, (0 + ∑ k : Fin 8, routed er hr k d) * Uiou d o) + biou o

/-- Neighbour `k`'s forget gate at column `j`. -/
def forget (k : Fin 8) (j : Fin 512) : EReal :=
  Ideal.logistic (((∑ q : Fin 512, xr q * Wf q j) + ∑ d : Fin 1024, routed er hr k d * Uf d j) + bf j)

/-- The new cell state at column `j`, over a given spelling `g` of the gates' pre-activations. -/
def cellOver (g : Fin 1536 → EReal) (j : Fin 512) : EReal :=
  Ideal.logistic (g ⟨j.val, by omega⟩) * Ideal.tanh (g ⟨j.val + 1024, by omega⟩)
    + ∑ k : Fin 8, forget xr er hr Wf Uf bf k j * cr k j

/-- The new hidden state at column `j`, over a given spelling `g` of the gates' pre-activations. -/
def hiddenOver (g : Fin 1536 → EReal) (j : Fin 512) : EReal :=
  Ideal.logistic (g ⟨j.val + 512, by omega⟩) * Ideal.tanh (cellOver xr er hr cr Wf Uf bf g j)

/-- The new cell state of the node. -/
def cell (j : Fin 512) : EReal := cellOver xr er hr cr Wf Uf bf (gates xr er hr Wiou Uiou biou) j

/-- The new hidden state of the node. -/
def hidden (j : Fin 512) : EReal := hiddenOver xr er hr cr Wf Uf bf (gates xr er hr Wiou Uiou biou) j

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A routed entry of real labels and real hidden rows is real. -/
theorem routed_isReal (he : ∀ k, IsReal (er k)) (hh : ∀ k j, IsReal (hr k j)) (k : Fin 8) (d : Fin 1024) :
    IsReal (routed er hr k d) := by
  unfold routed
  obtain ⟨e, he'⟩ := he k
  split
  · next hd =>
    obtain ⟨h, hh'⟩ := hh k ⟨d.val, hd⟩
    exact ⟨(1 - e) * h, by rw [he', hh', EReal.coe_mul, EReal.coe_sub, EReal.coe_one]⟩
  · next hd =>
    obtain ⟨h, hh'⟩ := hh k ⟨d.val - 512, by omega⟩
    exact ⟨e * h, by rw [he', hh', EReal.coe_mul]⟩

/-- For real labels, hidden rows and `Uiou`, summing the routed rows first changes nothing: for each contracted
    index `d` the product with `Uiou d o` distributes over the eight real summands, and the two finite sums swap. -/
theorem gatesSummedFirst_eq (he : ∀ k, IsReal (er k)) (hh : ∀ k j, IsReal (hr k j)) (hU : ∀ d o, IsReal (Uiou d o))
    (o : Fin 1536) : gatesSummedFirst xr er hr Wiou Uiou biou o = gates xr er hr Wiou Uiou biou o := by
  unfold gatesSummedFirst gates
  congr 2
  rw [Finset.sum_comm]
  refine Finset.sum_congr rfl fun d _ => ?_
  rw [zero_add]
  choose a ha using fun k => routed_isReal er hr he hh k d
  obtain ⟨u, hu⟩ := hU d o
  rw [hu, Finset.sum_congr rfl (fun k _ => ha k), ← coe_sum, ← EReal.coe_mul, Finset.sum_mul, coe_sum]
  exact Finset.sum_congr rfl fun k _ => by rw [ha k, EReal.coe_mul]

/-! ## The same over arrays of `n` nodes

Node `r`'s rows are read off the arrays: row `r` of the input `[n, 512]`, of the neighbours' hidden and cell states
`[n, 8, 512]` and of the labels `[n, 8, 1]`; the weights and biases are shared by all nodes. -/

section Arrays

open Idealize.ShloMosaic.ValueIdx

variable {n : ℕ}
variable (x : (⟨2, ![n, 512]⟩ : Shape).Idx → EReal) (h c : (⟨3, ![n, 8, 512]⟩ : Shape).Idx → EReal)
  (e : (⟨3, ![n, 8, 1]⟩ : Shape).Idx → EReal)
  (wiou : (⟨2, ![512, 1536]⟩ : Shape).Idx → EReal) (wf : (⟨2, ![512, 512]⟩ : Shape).Idx → EReal)
  (uiou : (⟨2, ![1024, 1536]⟩ : Shape).Idx → EReal) (uf : (⟨2, ![1024, 512]⟩ : Shape).Idx → EReal)
  (biou : (⟨1, ![1536]⟩ : Shape).Idx → EReal) (bf : (⟨1, ![512]⟩ : Shape).Idx → EReal)

/-- Node `r`'s gates' pre-activations, the neighbours summed after the contraction. -/
def gatesArr (r : Fin n) : Fin 1536 → EReal :=
  gates (fun q => x (ix2 r q)) (fun k => e (ix3 r k (0 : Fin 1))) (fun k j => h (ix3 r k j))
    (fun q o => wiou (ix2 q o)) (fun d o => uiou (ix2 d o)) (fun o => biou (ix1 o))

/-- Node `r`'s gates' pre-activations, the routed rows summed over the neighbours first. -/
def gatesArrSummedFirst (r : Fin n) : Fin 1536 → EReal :=
  gatesSummedFirst (fun q => x (ix2 r q)) (fun k => e (ix3 r k (0 : Fin 1))) (fun k j => h (ix3 r k j))
    (fun q o => wiou (ix2 q o)) (fun d o => uiou (ix2 d o)) (fun o => biou (ix1 o))

/-- The new cell states `[n, 512]`, over a given spelling `g` of every node's gates. -/
def cellArrOver (g : Fin n → Fin 1536 → EReal) : (⟨2, ![n, 512]⟩ : Shape).Idx → EReal := fun i =>
  cellOver (fun q => x (ix2 (i 0) q)) (fun k => e (ix3 (i 0) k (0 : Fin 1))) (fun k j => h (ix3 (i 0) k j))
    (fun k j => c (ix3 (i 0) k j)) (fun q j => wf (ix2 q j)) (fun d j => uf (ix2 d j)) (fun j => bf (ix1 j)) (g (i 0)) (i 1)

/-- The new hidden states `[n, 512]`, over a given spelling `g` of every node's gates. -/
def hiddenArrOver (g : Fin n → Fin 1536 → EReal) : (⟨2, ![n, 512]⟩ : Shape).Idx → EReal := fun i =>
  hiddenOver (fun q => x (ix2 (i 0) q)) (fun k => e (ix3 (i 0) k (0 : Fin 1))) (fun k j => h (ix3 (i 0) k j))
    (fun k j => c (ix3 (i 0) k j)) (fun q j => wf (ix2 q j)) (fun d j => uf (ix2 d j)) (fun j => bf (ix1 j)) (g (i 0)) (i 1)

/-- The new cell states of all nodes. -/
def cellArr : (⟨2, ![n, 512]⟩ : Shape).Idx → EReal :=
  cellArrOver x h c e wf uf bf (gatesArr x h e wiou uiou biou)

/-- The new hidden states of all nodes. -/
def hiddenArr : (⟨2, ![n, 512]⟩ : Shape).Idx → EReal :=
  hiddenArrOver x h c e wf uf bf (gatesArr x h e wiou uiou biou)

/-- The new cell states of all nodes, the routed rows summed over the neighbours first. -/
def cellArrSummedFirst : (⟨2, ![n, 512]⟩ : Shape).Idx → EReal :=
  cellArrOver x h c e wf uf bf (gatesArrSummedFirst x h e wiou uiou biou)

/-- The new hidden states of all nodes, the routed rows summed over the neighbours first. -/
def hiddenArrSummedFirst : (⟨2, ![n, 512]⟩ : Shape).Idx → EReal :=
  hiddenArrOver x h c e wf uf bf (gatesArrSummedFirst x h e wiou uiou biou)

/-- For real labels, hidden states and `Uiou`, every node's gates are the same in both spellings. -/
theorem gatesArrSummedFirst_eq (he : ∀ i, IsReal (e i)) (hh : ∀ i, IsReal (h i)) (hu : ∀ i, IsReal (uiou i)) :
    gatesArrSummedFirst x h e wiou uiou biou = gatesArr x h e wiou uiou biou := by
  funext r o
  exact gatesSummedFirst_eq _ _ _ _ _ _ (fun k => he _) (fun k j => hh _) (fun d o => hu _) o

theorem cellArrSummedFirst_eq (he : ∀ i, IsReal (e i)) (hh : ∀ i, IsReal (h i)) (hu : ∀ i, IsReal (uiou i)) :
    cellArrSummedFirst x h c e wiou wf uiou uf biou bf = cellArr x h c e wiou wf uiou uf biou bf := by
  unfold cellArrSummedFirst cellArr
  rw [gatesArrSummedFirst_eq x h e wiou uiou biou he hh hu]

theorem hiddenArrSummedFirst_eq (he : ∀ i, IsReal (e i)) (hh : ∀ i, IsReal (h i)) (hu : ∀ i, IsReal (uiou i)) :
    hiddenArrSummedFirst x h c e wiou wf uiou uf biou bf = hiddenArr x h c e wiou wf uiou uf biou bf := by
  unfold hiddenArrSummedFirst hiddenArr
  rw [gatesArrSummedFirst_eq x h e wiou uiou biou he hh hu]

end Arrays

end Cert.TreeCell

end
-- ==== Proof.LibColumns.lean ====
/-
  Column forms of the layout operations, and a row sum, read at an index.

  A sum along the second axis of an `[a, b]` array that keeps the axis gives an `[a, 1]` column; taking it off the
  array again broadcasts the column back to `[a, b]`. Here: the cast `[a] → [a, 1]` reads entry `p` at `(p, u)`
  whatever the unit coordinate `u`; the broadcast `[a, 1] → [a, b]` reads the column's entry `(p, 0)` at every
  `(p, c)`; and a lane sum of an `[n, b]` array over its second axis is, at row `r`, the sum over `k` of the
  entries `(r, k)`. All for arbitrary extents.
-/
import Idealize.ShloMosaic.Lib.ValueIdx
import Idealize.ShloMosaic.Lib.Pipeline.Value
import Idealize.ShloMosaic.PureOps.Ideal.Laws

noncomputable section

open scoped BigOperators

namespace Cert.Columns

open Idealize.ShloMosaic Idealize.ShloMosaic.ValueIdx

variable {α : Type}

/-- An `[a]` array cast to the column `[a, 1]` reads, at `(p, u)`, the operand at `p`: the row-major position of
    `(p, u)` in `[a, 1]` is `p · 1 + u` with `u = 0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum over the second axis of an `[n, b]` array of extended reals, from the zero word, is at row `r` the sum
    of that row's entries. -/
theorem rowSum_apply {n b : ℕ} {φ : FTy} (src : FVec Ideal ⟨2, ![n, b]⟩ φ) (acc : BitVec φ.bits)
    (h : (⟨2, ![n, b]⟩ : Shape).Reduces [1] ⟨1, ![n]⟩) (hφ : FKind.Formats φ) (hacc : acc = FKind.add.neutral φ hφ) (r : Fin n) :
    multiReduction .add [1] ⟨1, ![n]⟩ src acc h hφ hacc (ix1 r) = ∑ k : Fin b, src (ix2 r k) := by
  refine (Ideal.multiReduction_add_single src acc h hφ hacc (ix1 r)).trans ?_
  refine Finset.sum_congr rfl fun k _ => congrArg src ?_
  funext ax
  apply Fin.ext
  match ax with
  | ⟨0, _⟩ => rfl
  | ⟨1, _⟩ => rfl

end Cert.Columns

end
-- ==== Proof.KLayout.lean ====
/-
  The kernel body's layout operations, read at an index of the 128-row block (at the ideal instance).

  For each neighbour `k` the body slices row `k` out of the hidden block `[128, 8, 512]` and the label block
  `[128, 8, 1]`, broadcasts the label column along the 512 lanes, and joins `(1 - e) · h` and `e · h` side by side into
  a `[128, 1024]` block: at `(p, d)` that is the routed entry `d` of neighbour `k` of node `p` (`TreeCell.routed`). A
  bias vector is laid as a row and broadcast down the rows; a gate is a window of 512 columns of the `[128, 1536]` block.
-/
import proofs.«142199_j32933809225898_1_alg».proof.Proof.Gen.KernelIdeal.Skeleton
import proofs.«142199_j32933809225898_1_alg».proof.Proof.Spec
import proofs.«142199_j32933809225898_1_alg».proof.Proof.LibColumns
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.KernelIdeal.Pieces

open Cert.KernelIdeal Cert.KernelIdeal.Gen Idealize.ShloMosaic Idealize.ShloMosaic.ValueIdx Cert.TreeCell

/-! ## Rows of a block -/

/-- Node `p`'s eight edge labels, read off the label block. -/
abbrev eRow (e : Vec Ideal S128x8x1 .f32) (p : Fin 128) : Fin 8 → EReal := fun k => e (ix3 p k (0 : Fin 1))
/-- Node `p`'s eight neighbour rows, read off a `[128, 8, 512]` block. -/
abbrev nRow (h : Vec Ideal S128x8x512 .f32) (p : Fin 128) : Fin 8 → Fin 512 → EReal := fun k j => h (ix3 p k j)

/-! ## Layout reads -/

section Layout
variable {α : Type}

/-- Row `k` of a `[128, 8, 512]` block, sliced out and squeezed to `[128, 512]`, reads at `(p, j)` the block at `(p, k, j)`. -/
theorem sliceRow_apply (k : ℕ) (hk : k < 8) (v : S128x8x512.Idx → α) (hs : S128x8x512.Slices ![0, k, 0] S128x1x512)
    (hc : S128x1x512.ShapeCasts S128x512) (p : Fin 128) (j : Fin 512) :
    shapeCast S128x512 (extractStridedSlice S128x1x512 ![0, k, 0] v hs) hc (ix2 p j) = v (ix3 p ⟨k, hk⟩ j) := by
  -- the squeeze: position `p · 512 + j` of `[128, 512]` is position `(p · 1 + 0) · 512 + j` of `[128, 1, 512]`
  refine (shapeCast_apply _ hc (ix2 p j) (ix3 p (0 : Fin 1) j) (by
    rw [Shape.rowMajor_val_three, Shape.rowMajor_val_two]
    show (p.val * 1 + 0) * 512 + j.val = p.val * 512 + j.val
    omega)).trans ?_
  -- the slice: offsets `(0, k, 0)` added to `(p, 0, j)`
  refine extractStridedSlice_apply _ v hs (ix3 p (0 : Fin 1) j) (ix3 p ⟨k, hk⟩ j) fun a => ?_
  match a with
  | ⟨0, _⟩ => show p.val = 0 + p.val; omega
  | ⟨1, _⟩ => show k = k + 0; omega
  | ⟨2, _⟩ => show j.val = 0 + j.val; omega

/-- Row `k` of a `[128, 8, 1]` block, sliced out and squeezed to the column `[128, 1]`, reads at `(p, u)` the block at `(p, k, 0)`. -/
theorem sliceCol_apply (k : ℕ) (hk : k < 8) (v : S128x8x1.Idx → α) (hs : S128x8x1.Slices ![0, k, 0] S128x1x1)
    (hc : S128x1x1.ShapeCasts S128x1) (p : Fin 128) (u : Fin 1) :
    shapeCast S128x1 (extractStridedSlice S128x1x1 ![0, k, 0] v hs) hc (ix2 p u) = v (ix3 p ⟨k, hk⟩ (0 : Fin 1)) := by
  have hu : u.val = 0 := by omega
  -- the squeeze: position `p · 1 + u` of `[128, 1]` is position `(p · 1 + 0) · 1 + 0` of `[128, 1, 1]`
  refine (shapeCast_apply _ hc (ix2 p u) (ix3 p (0 : Fin 1) (0 : Fin 1)) (by
    rw [Shape.rowMajor_val_three, Shape.rowMajor_val_two]
    show (p.val * 1 + 0) * 1 + 0 = p.val * 1 + u.val
    omega)).trans ?_
  -- the slice: offsets `(0, k, 0)` added to `(p, 0, 0)`
  refine extractStridedSlice_apply _ v hs (ix3 p (0 : Fin 1) (0 : Fin 1)) (ix3 p ⟨k, hk⟩ (0 : Fin 1)) fun a => ?_
  match a with
  | ⟨0, _⟩ => show p.val = 0 + p.val; omega
  | ⟨1, _⟩ => show k = k + 0; omega
  | ⟨2, _⟩ => show 0 = 0 + 0; rfl

/-- A 512-vector laid as a row and broadcast down the 128 rows reads at `(p, j)` its entry `j`. -/
theorem biasRow512_apply (v : S512.Idx → α) (h1 : S512.ShapeCasts S1x512) (h2 : S1x512.Broadcasts S128x512) (p : Fin 128) (j : Fin 512) :
    broadcastTo S128x512 (shapeCast S1x512 v h1) h2 (ix2 p j) = v (ix1 j) :=
  (broadcastTo_1b_ab_apply _ h2 p j).trans (shapeCast_a_1a_apply v h1 (0 : Fin 1) j)

/-- A 1536-vector laid as a row and broadcast down the 128 rows reads at `(p, o)` its entry `o`. -/
theorem biasRow1536_apply (v : S1536.Idx → α) (h1 : S1536.ShapeCasts S1x1536) (h2 : S1x1536.Broadcasts S128x1536) (p : Fin 128) (o : Fin 1536) :
    broadcastTo S128x1536 (shapeCast S1x1536 v h1) h2 (ix2 p o) = v (ix1 o) :=
  (broadcastTo_1b_ab_apply _ h2 p o).trans (shapeCast_a_1a_apply v h1 (0 : Fin 1) o)

/-- A window of 512 columns starting at column `c` of a `[128, 1536]` block reads at `(p, j)` the block at `(p, c + j)`. -/
theorem sliceCols_apply (c : ℕ) (hc : c + 512 ≤ 1536) (v : S128x1536.Idx → α) (hs : S128x1536.Slices ![0, c] S128x512) (p : Fin 128) (j : Fin 512) :
    extractStridedSlice S128x512 ![0, c] v hs (ix2 p j) = v (ix2 p (⟨c + j.val, by omega⟩ : Fin 1536)) := by
  refine extractStridedSlice_apply _ v hs (ix2 p j) (ix2 p (⟨c + j.val, by omega⟩ : Fin 1536)) fun a => ?_
  match a with
  | ⟨0, _⟩ => show p.val = 0 + p.val; omega
  | ⟨1, _⟩ => show c + j.val = c + j.val; rfl

end Layout

/-! ## The routed block of neighbour `k` -/

/-- The joined block `[(1 - e_k) · h_k | e_k · h_k]` of neighbour `k`, whatever proofs of the side conditions the
    slices, casts, broadcast and join carry, reads at `(p, d)` the routed entry `d` of neighbour `k` of node `p`. -/
theorem routedBlock_apply (k : ℕ) (hk : k < 8) (h : Vec Ideal S128x8x512 .f32) (e : Vec Ideal S128x8x1 .f32)
    (hs1 : S128x8x512.Slices ![0, k, 0] S128x1x512) (hc1 : S128x1x512.ShapeCasts S128x512)
    (hs2 : S128x8x1.Slices ![0, k, 0] S128x1x1) (hc2 : S128x1x1.ShapeCasts S128x1)
    (hb : S128x1.Broadcasts S128x512) (hcat : Shape.Concatenates [S128x512, S128x512] S128x1024 1) (hlt : FTy.bf16.bits < FTy.f32.bits)
    (p : Fin 128) (d : Fin 1024) :
    (truncf .bf16 (concatenate S128x1024 1
      [⟨S128x512, mulf (broadcastTo S128x512 (subf (broadcast S128x1 (Scalar.ofBits .f32 0x3F800000#32 : Ideal .f32))
          (shapeCast S128x1 (extractStridedSlice S128x1x1 ![0, k, 0] e hs2) hc2)) hb)
          (shapeCast S128x512 (extractStridedSlice S128x1x512 ![0, k, 0] h hs1) hc1)⟩,
       ⟨S128x512, mulf (broadcastTo S128x512 (shapeCast S128x1 (extractStridedSlice S128x1x1 ![0, k, 0] e hs2) hc2) hb)
          (shapeCast S128x512 (extractStridedSlice S128x1x512 ![0, k, 0] h hs1) hc1)⟩] hcat) hlt : FVec Ideal S128x1024 .bf16) (ix2 p d)
      = routed (eRow e p) (nRow h p) ⟨k, hk⟩ d := by
  -- the format change is the identity on extended reals; what is left is the join read at `(p, d)`
  show concatenate S128x1024 1
      [⟨S128x512, mulf (broadcastTo S128x512 (subf (broadcast S128x1 (Scalar.ofBits .f32 0x3F800000#32 : Ideal .f32))
          (shapeCast S128x1 (extractStridedSlice S128x1x1 ![0, k, 0] e hs2) hc2)) hb)
          (shapeCast S128x512 (extractStridedSlice S128x1x512 ![0, k, 0] h hs1) hc1)⟩,
       ⟨S128x512, mulf (broadcastTo S128x512 (shapeCast S128x1 (extractStridedSlice S128x1x1 ![0, k, 0] e hs2) hc2) hb)
          (shapeCast S128x512 (extractStridedSlice S128x1x512 ![0, k, 0] h hs1) hc1)⟩] hcat (ix2 p d) = _
  unfold routed
  by_cases hd : d.val < 512
  · -- the left piece, at column `d`
    rw [dif_pos hd]
    refine (concatenate_pair_apply_left (t := S128x1024) (s₁ := S128x512) (s₂ := S128x512) (1 : Fin 2) _ _ hcat
      (ix2 p d) rfl (ix2 p (⟨d.val, hd⟩ : Fin 512)) (fun b => ?_)).trans ?_
    · match b with
      | ⟨0, _⟩ => rfl
      | ⟨1, _⟩ => rfl
    · rw [mulf_apply, Cert.Columns.broadcastTo_a1_ab_apply, subf_apply, broadcast_apply, sliceCol_apply k hk, sliceRow_apply k hk]
      show (Ideal.ofBits .f32 0x3F800000#32 - _) * _ = _
      rw [Ideal.ofBits_one_f32]
  · -- the right piece, at column `d - 512`
    rw [dif_neg hd]
    refine (concatenate_pair_apply_right (t := S128x1024) (s₁ := S128x512) (s₂ := S128x512) (1 : Fin 2) _ _ hcat
      (ix2 p d) rfl rfl (ix2 p (⟨d.val - 512, by omega⟩ : Fin 512)) (fun b hb' => ?_) ?_).trans ?_
    · match b with
      | ⟨0, _⟩ => rfl
      | ⟨1, _⟩ => exact absurd rfl hb'
    · show d.val - 512 + 512 = d.val
      omega
    · rw [mulf_apply, Cert.Columns.broadcastTo_a1_ab_apply, sliceCol_apply k hk, sliceRow_apply k hk]

theorem routed0 (h : Vec Ideal S128x8x512 .f32) (e : Vec Ideal S128x8x1 .f32) (p : Fin 128) (d : Fin 1024) :
    k0_pay12 h e (ix2 p d) = routed (eRow e p) (nRow h p) 0 d := by
  unfold k0_pay12
  exact routedBlock_apply 0 (by omega) h e _ _ _ _ _ _ _ p d
theorem routed1 (h : Vec Ideal S128x8x512 .f32) (e : Vec Ideal S128x8x1 .f32) (p : Fin 128) (d : Fin 1024) :
    k0_pay14 h e (ix2 p d) = routed (eRow e p) (nRow h p) 1 d := by
  unfold k0_pay14
  exact routedBlock_apply 1 (by omega) h e _ _ _ _ _ _ _ p d
theorem routed2 (h : Vec Ideal S128x8x512 .f32) (e : Vec Ideal S128x8x1 .f32) (p : Fin 128) (d : Fin 1024) :
    k0_pay16 h e (ix2 p d) = routed (eRow e p) (nRow h p) 2 d := by
  unfold k0_pay16
  exact routedBlock_apply 2 (by omega) h e _ _ _ _ _ _ _ p d
theorem routed3 (h : Vec Ideal S128x8x512 .f32) (e : Vec Ideal S128x8x1 .f32) (p : Fin 128) (d : Fin 1024) :
    k0_pay20 h e (ix2 p d) = routed (eRow e p) (nRow h p) 3 d := by
  unfold k0_pay20
  exact routedBlock_apply 3 (by omega) h e _ _ _ _ _ _ _ p d
theorem routed4 (h : Vec Ideal S128x8x512 .f32) (e : Vec Ideal S128x8x1 .f32) (p : Fin 128) (d : Fin 1024) :
    k0_pay21 h e (ix2 p d) = routed (eRow e p) (nRow h p) 4 d := by
  unfold k0_pay21
  exact routedBlock_apply 4 (by omega) h e _ _ _ _ _ _ _ p d
theorem routed5 (h : Vec Ideal S128x8x512 .f32) (e : Vec Ideal S128x8x1 .f32) (p : Fin 128) (d : Fin 1024) :
    k0_pay24 h e (ix2 p d) = routed (eRow e p) (nRow h p) 5 d := by
  unfold k0_pay24
  exact routedBlock_apply 5 (by omega) h e _ _ _ _ _ _ _ p d
theorem routed6 (h : Vec Ideal S128x8x512 .f32) (e : Vec Ideal S128x8x1 .f32) (p : Fin 128) (d : Fin 1024) :
    k0_pay25 h e (ix2 p d) = routed (eRow e p) (nRow h p) 6 d := by
  unfold k0_pay25
  exact routedBlock_apply 6 (by omega) h e _ _ _ _ _ _ _ p d
theorem routed7 (h : Vec Ideal S128x8x512 .f32) (e : Vec Ideal S128x8x1 .f32) (p : Fin 128) (d : Fin 1024) :
    k0_pay1 (k0_pay28 h) (k0_pay29 e) (k0_pay30 h e) (ix2 p d) = routed (eRow e p) (nRow h p) 7 d := by
  unfold k0_pay1 k0_pay30 k0_pay28 k0_pay29
  exact routedBlock_apply 7 (by omega) h e _ _ _ _ _ _ _ p d

/-! ## The bias of the forget gates, broadcast -/

theorem pay19_apply (b : Vec Ideal S512 .f32) (p : Fin 128) (j : Fin 512) : k0_pay19 b (ix2 p j) = b (ix1 j) := by
  unfold k0_pay19
  exact biasRow512_apply b _ _ p j

end Cert.KernelIdeal.Pieces

end
-- ==== Proof.KMatmul.lean ====
/-
  The kernel body's matrix products, read at an index of the 128-row block (at the ideal instance).

  A matrix product into a zero accumulator is, at `(p, o)`, the sum over the contracted index of the products of the
  operands' entries; a change of float format and a cast to the same shape are the identity; the zero word is zero.
-/
import proofs.«142199_j32933809225898_1_alg».proof.Proof.Gen.KernelIdeal.Skeleton
import proofs.«142199_j32933809225898_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.KernelIdeal.Pieces

open Cert.KernelIdeal Cert.KernelIdeal.Gen Idealize.ShloMosaic Idealize.ShloMosaic.ValueIdx Cert.TreeCell

/-! ## The four matrix products into a zero accumulator

Each product contracts the left operand's axis 1 with the right operand's axis 0 and has no batch axis. So the left
operand is read at (the output's row, the contracted index) and the right operand at (the contracted index, the output's
column): for each product the four lemmas below say this coordinate by coordinate, and the product's theorem re-indexes
the sum over the one-axis contraction index by `Fin n`. -/

/-! ### `x · Wf`: 128×512 by 512×512 -/

private theorem lhs_xWf_0 (i : S128x512.Idx) (q : dot_S128x512_S512x512_S128x512_1_0_0_1_n_n.contr.Idx) :
    (dot_S128x512_S512x512_S128x512_1_0_0_1_n_n.lhsIdx i q 0).val = (i 0).val := by
  unfold DotDims.lhsIdx
  rw [dif_neg (show ¬(0 : Fin S128x512.rank) ∈ dot_S128x512_S512x512_S128x512_1_0_0_1_n_n.lhsBatch by decide), dif_pos (show (0 : Fin S128x512.rank) ∈ dot_S128x512_S512x512_S128x512_1_0_0_1_n_n.lhsNonContracting by decide)]
  rfl
private theorem lhs_xWf_1 (i : S128x512.Idx) (q : dot_S128x512_S512x512_S128x512_1_0_0_1_n_n.contr.Idx) :
    (dot_S128x512_S512x512_S128x512_1_0_0_1_n_n.lhsIdx i q 1).val = (q ⟨0, by decide⟩).val :=
  dot_S128x512_S512x512_S128x512_1_0_0_1_n_n.lhsIdx_val_of_single rfl i q
private theorem rhs_xWf_0 (i : S128x512.Idx) (q : dot_S128x512_S512x512_S128x512_1_0_0_1_n_n.contr.Idx) :
    (dot_S128x512_S512x512_S128x512_1_0_0_1_n_n.rhsIdx i q 0).val = (q ⟨0, by decide⟩).val :=
  dot_S128x512_S512x512_S128x512_1_0_0_1_n_n.rhsIdx_val_of_single rfl i q
private theorem rhs_xWf_1 (i : S128x512.Idx) (q : dot_S128x512_S512x512_S128x512_1_0_0_1_n_n.contr.Idx) :
    (dot_S128x512_S512x512_S128x512_1_0_0_1_n_n.rhsIdx i q 1).val = (i 1).val := by
  unfold DotDims.rhsIdx
  rw [dif_neg (show ¬(1 : Fin S512x512.rank) ∈ dot_S128x512_S512x512_S128x512_1_0_0_1_n_n.rhsBatch by decide), dif_pos (show (1 : Fin S512x512.rank) ∈ dot_S128x512_S512x512_S128x512_1_0_0_1_n_n.rhsNonContracting by decide)]
  rfl

theorem matmul_x_Wf (A : FVec Ideal S128x512 .bf16) (B : FVec Ideal S512x512 .bf16) (p : Fin 128) (j : Fin 512) :
    matmul dot_S128x512_S512x512_S128x512_1_0_0_1_n_n none A B (constant S128x512 .f32 0x00000000#32) (ix2 p j)
      = ∑ q : Fin 512, A (ix2 p q) * B (ix2 q j) := by
  refine (Ideal.matmul_constant_zero_apply dot_S128x512_S512x512_S128x512_1_0_0_1_n_n none A B (ix2 p j)).trans ?_
  rw [← Equiv.sum_comp (ValueIdx.contrEquiv1 dot_S128x512_S512x512_S128x512_1_0_0_1_n_n 512 rfl rfl).symm]
  refine Finset.sum_congr rfl fun k _ => ?_
  have hk := ValueIdx.contrEquiv1_symm_val dot_S128x512_S512x512_S128x512_1_0_0_1_n_n 512 rfl rfl k
  have el : dot_S128x512_S512x512_S128x512_1_0_0_1_n_n.lhsIdx (ix2 p j) ((ValueIdx.contrEquiv1 dot_S128x512_S512x512_S128x512_1_0_0_1_n_n 512 rfl rfl).symm k) = ix2 p k := funext fun a => Fin.ext (by
    match a with
    | ⟨0, _⟩ => exact lhs_xWf_0 _ _
    | ⟨1, _⟩ => exact (lhs_xWf_1 _ _).trans hk)
  have er : dot_S128x512_S512x512_S128x512_1_0_0_1_n_n.rhsIdx (ix2 p j) ((ValueIdx.contrEquiv1 dot_S128x512_S512x512_S128x512_1_0_0_1_n_n 512 rfl rfl).symm k) = ix2 k j := funext fun a => Fin.ext (by
    match a with
    | ⟨0, _⟩ => exact (rhs_xWf_0 _ _).trans hk
    | ⟨1, _⟩ => exact rhs_xWf_1 _ _)
  rw [el, er]

/-! ### `x · Wiou`: 128×512 by 512×1536 -/

private theorem lhs_xWiou_0 (i : S128x1536.Idx) (q : dot_S128x512_S512x1536_S128x1536_1_0_0_1_n_n.contr.Idx) :
    (dot_S128x512_S512x1536_S128x1536_1_0_0_1_n_n.lhsIdx i q 0).val = (i 0).val := by
  unfold DotDims.lhsIdx
  rw [dif_neg (show ¬(0 : Fin S128x512.rank) ∈ dot_S128x512_S512x1536_S128x1536_1_0_0_1_n_n.lhsBatch by decide), dif_pos (show (0 : Fin S128x512.rank) ∈ dot_S128x512_S512x1536_S128x1536_1_0_0_1_n_n.lhsNonContracting by decide)]
  rfl
private theorem lhs_xWiou_1 (i : S128x1536.Idx) (q : dot_S128x512_S512x1536_S128x1536_1_0_0_1_n_n.contr.Idx) :
    (dot_S128x512_S512x1536_S128x1536_1_0_0_1_n_n.lhsIdx i q 1).val = (q ⟨0, by decide⟩).val :=
  dot_S128x512_S512x1536_S128x1536_1_0_0_1_n_n.lhsIdx_val_of_single rfl i q
private theorem rhs_xWiou_0 (i : S128x1536.Idx) (q : dot_S128x512_S512x1536_S128x1536_1_0_0_1_n_n.contr.Idx) :
    (dot_S128x512_S512x1536_S128x1536_1_0_0_1_n_n.rhsIdx i q 0).val = (q ⟨0, by decide⟩).val :=
  dot_S128x512_S512x1536_S128x1536_1_0_0_1_n_n.rhsIdx_val_of_single rfl i q
private theorem rhs_xWiou_1 (i : S128x1536.Idx) (q : dot_S128x512_S512x1536_S128x1536_1_0_0_1_n_n.contr.Idx) :
    (dot_S128x512_S512x1536_S128x1536_1_0_0_1_n_n.rhsIdx i q 1).val = (i 1).val := by
  unfold DotDims.rhsIdx
  rw [dif_neg (show ¬(1 : Fin S512x1536.rank) ∈ dot_S128x512_S512x1536_S128x1536_1_0_0_1_n_n.rhsBatch by decide), dif_pos (show (1 : Fin S512x1536.rank) ∈ dot_S128x512_S512x1536_S128x1536_1_0_0_1_n_n.rhsNonContracting by decide)]
  rfl

theorem matmul_x_Wiou (A : FVec Ideal S128x512 .bf16) (B : FVec Ideal S512x1536 .bf16) (p : Fin 128) (o : Fin 1536) :
    matmul dot_S128x512_S512x1536_S128x1536_1_0_0_1_n_n none A B (constant S128x1536 .f32 0x00000000#32) (ix2 p o)
      = ∑ q : Fin 512, A (ix2 p q) * B (ix2 q o) := by
  refine (Ideal.matmul_constant_zero_apply dot_S128x512_S512x1536_S128x1536_1_0_0_1_n_n none A B (ix2 p o)).trans ?_
  rw [← Equiv.sum_comp (ValueIdx.contrEquiv1 dot_S128x512_S512x1536_S128x1536_1_0_0_1_n_n 512 rfl rfl).symm]
  refine Finset.sum_congr rfl fun k _ => ?_
  have hk := ValueIdx.contrEquiv1_symm_val dot_S128x512_S512x1536_S128x1536_1_0_0_1_n_n 512 rfl rfl k
  have el : dot_S128x512_S512x1536_S128x1536_1_0_0_1_n_n.lhsIdx (ix2 p o) ((ValueIdx.contrEquiv1 dot_S128x512_S512x1536_S128x1536_1_0_0_1_n_n 512 rfl rfl).symm k) = ix2 p k := funext fun a => Fin.ext (by
    match a with
    | ⟨0, _⟩ => exact lhs_xWiou_0 _ _
    | ⟨1, _⟩ => exact (lhs_xWiou_1 _ _).trans hk)
  have er : dot_S128x512_S512x1536_S128x1536_1_0_0_1_n_n.rhsIdx (ix2 p o) ((ValueIdx.contrEquiv1 dot_S128x512_S512x1536_S128x1536_1_0_0_1_n_n 512 rfl rfl).symm k) = ix2 k o := funext fun a => Fin.ext (by
    match a with
    | ⟨0, _⟩ => exact (rhs_xWiou_0 _ _).trans hk
    | ⟨1, _⟩ => exact rhs_xWiou_1 _ _)
  rw [el, er]

/-! ### `r · Uiou`: 128×1024 by 1024×1536 -/

private theorem lhs_rUiou_0 (i : S128x1536.Idx) (q : dot_S128x1024_S1024x1536_S128x1536_1_0_0_1_n_n.contr.Idx) :
    (dot_S128x1024_S1024x1536_S128x1536_1_0_0_1_n_n.lhsIdx i q 0).val = (i 0).val := by
  unfold DotDims.lhsIdx
  rw [dif_neg (show ¬(0 : Fin S128x1024.rank) ∈ dot_S128x1024_S1024x1536_S128x1536_1_0_0_1_n_n.lhsBatch by decide), dif_pos (show (0 : Fin S128x1024.rank) ∈ dot_S128x1024_S1024x1536_S128x1536_1_0_0_1_n_n.lhsNonContracting by decide)]
  rfl
private theorem lhs_rUiou_1 (i : S128x1536.Idx) (q : dot_S128x1024_S1024x1536_S128x1536_1_0_0_1_n_n.contr.Idx) :
    (dot_S128x1024_S1024x1536_S128x1536_1_0_0_1_n_n.lhsIdx i q 1).val = (q ⟨0, by decide⟩).val :=
  dot_S128x1024_S1024x1536_S128x1536_1_0_0_1_n_n.lhsIdx_val_of_single rfl i q
private theorem rhs_rUiou_0 (i : S128x1536.Idx) (q : dot_S128x1024_S1024x1536_S128x1536_1_0_0_1_n_n.contr.Idx) :
    (dot_S128x1024_S1024x1536_S128x1536_1_0_0_1_n_n.rhsIdx i q 0).val = (q ⟨0, by decide⟩).val :=
  dot_S128x1024_S1024x1536_S128x1536_1_0_0_1_n_n.rhsIdx_val_of_single rfl i q
private theorem rhs_rUiou_1 (i : S128x1536.Idx) (q : dot_S128x1024_S1024x1536_S128x1536_1_0_0_1_n_n.contr.Idx) :
    (dot_S128x1024_S1024x1536_S128x1536_1_0_0_1_n_n.rhsIdx i q 1).val = (i 1).val := by
  unfold DotDims.rhsIdx
  rw [dif_neg (show ¬(1 : Fin S1024x1536.rank) ∈ dot_S128x1024_S1024x1536_S128x1536_1_0_0_1_n_n.rhsBatch by decide), dif_pos (show (1 : Fin S1024x1536.rank) ∈ dot_S128x1024_S1024x1536_S128x1536_1_0_0_1_n_n.rhsNonContracting by decide)]
  rfl

theorem matmul_r_Uiou (A : FVec Ideal S128x1024 .bf16) (B : FVec Ideal S1024x1536 .bf16) (p : Fin 128) (o : Fin 1536) :
    matmul dot_S128x1024_S1024x1536_S128x1536_1_0_0_1_n_n none A B (constant S128x1536 .f32 0x00000000#32) (ix2 p o)
      = ∑ d : Fin 1024, A (ix2 p d) * B (ix2 d o) := by
  refine (Ideal.matmul_constant_zero_apply dot_S128x1024_S1024x1536_S128x1536_1_0_0_1_n_n none A B (ix2 p o)).trans ?_
  rw [← Equiv.sum_comp (ValueIdx.contrEquiv1 dot_S128x1024_S1024x1536_S128x1536_1_0_0_1_n_n 1024 rfl rfl).symm]
  refine Finset.sum_congr rfl fun k _ => ?_
  have hk := ValueIdx.contrEquiv1_symm_val dot_S128x1024_S1024x1536_S128x1536_1_0_0_1_n_n 1024 rfl rfl k
  have el : dot_S128x1024_S1024x1536_S128x1536_1_0_0_1_n_n.lhsIdx (ix2 p o) ((ValueIdx.contrEquiv1 dot_S128x1024_S1024x1536_S128x1536_1_0_0_1_n_n 1024 rfl rfl).symm k) = ix2 p k := funext fun a => Fin.ext (by
    match a with
    | ⟨0, _⟩ => exact lhs_rUiou_0 _ _
    | ⟨1, _⟩ => exact (lhs_rUiou_1 _ _).trans hk)
  have er : dot_S128x1024_S1024x1536_S128x1536_1_0_0_1_n_n.rhsIdx (ix2 p o) ((ValueIdx.contrEquiv1 dot_S128x1024_S1024x1536_S128x1536_1_0_0_1_n_n 1024 rfl rfl).symm k) = ix2 k o := funext fun a => Fin.ext (by
    match a with
    | ⟨0, _⟩ => exact (rhs_rUiou_0 _ _).trans hk
    | ⟨1, _⟩ => exact rhs_rUiou_1 _ _)
  rw [el, er]

/-! ### `r · Uf`: 128×1024 by 1024×512 -/

private theorem lhs_rUf_0 (i : S128x512.Idx) (q : dot_S128x1024_S1024x512_S128x512_1_0_0_1_n_n.contr.Idx) :
    (dot_S128x1024_S1024x512_S128x512_1_0_0_1_n_n.lhsIdx i q 0).val = (i 0).val := by
  unfold DotDims.lhsIdx
  rw [dif_neg (show ¬(0 : Fin S128x1024.rank) ∈ dot_S128x1024_S1024x512_S128x512_1_0_0_1_n_n.lhsBatch by decide), dif_pos (show (0 : Fin S128x1024.rank) ∈ dot_S128x1024_S1024x512_S128x512_1_0_0_1_n_n.lhsNonContracting by decide)]
  rfl
private theorem lhs_rUf_1 (i : S128x512.Idx) (q : dot_S128x1024_S1024x512_S128x512_1_0_0_1_n_n.contr.Idx) :
    (dot_S128x1024_S1024x512_S128x512_1_0_0_1_n_n.lhsIdx i q 1).val = (q ⟨0, by decide⟩).val :=
  dot_S128x1024_S1024x512_S128x512_1_0_0_1_n_n.lhsIdx_val_of_single rfl i q
private theorem rhs_rUf_0 (i : S128x512.Idx) (q : dot_S128x1024_S1024x512_S128x512_1_0_0_1_n_n.contr.Idx) :
    (dot_S128x1024_S1024x512_S128x512_1_0_0_1_n_n.rhsIdx i q 0).val = (q ⟨0, by decide⟩).val :=
  dot_S128x1024_S1024x512_S128x512_1_0_0_1_n_n.rhsIdx_val_of_single rfl i q
private theorem rhs_rUf_1 (i : S128x512.Idx) (q : dot_S128x1024_S1024x512_S128x512_1_0_0_1_n_n.contr.Idx) :
    (dot_S128x1024_S1024x512_S128x512_1_0_0_1_n_n.rhsIdx i q 1).val = (i 1).val := by
  unfold DotDims.rhsIdx
  rw [dif_neg (show ¬(1 : Fin S1024x512.rank) ∈ dot_S128x1024_S1024x512_S128x512_1_0_0_1_n_n.rhsBatch by decide), dif_pos (show (1 : Fin S1024x512.rank) ∈ dot_S128x1024_S1024x512_S128x512_1_0_0_1_n_n.rhsNonContracting by decide)]
  rfl

theorem matmul_r_Uf (A : FVec Ideal S128x1024 .bf16) (B : FVec Ideal S1024x512 .bf16) (p : Fin 128) (j : Fin 512) :
    matmul dot_S128x1024_S1024x512_S128x512_1_0_0_1_n_n none A B (constant S128x512 .f32 0x00000000#32) (ix2 p j)
      = ∑ d : Fin 1024, A (ix2 p d) * B (ix2 d j) := by
  refine (Ideal.matmul_constant_zero_apply dot_S128x1024_S1024x512_S128x512_1_0_0_1_n_n none A B (ix2 p j)).trans ?_
  rw [← Equiv.sum_comp (ValueIdx.contrEquiv1 dot_S128x1024_S1024x512_S128x512_1_0_0_1_n_n 1024 rfl rfl).symm]
  refine Finset.sum_congr rfl fun k _ => ?_
  have hk := ValueIdx.contrEquiv1_symm_val dot_S128x1024_S1024x512_S128x512_1_0_0_1_n_n 1024 rfl rfl k
  have el : dot_S128x1024_S1024x512_S128x512_1_0_0_1_n_n.lhsIdx (ix2 p j) ((ValueIdx.contrEquiv1 dot_S128x1024_S1024x512_S128x512_1_0_0_1_n_n 1024 rfl rfl).symm k) = ix2 p k := funext fun a => Fin.ext (by
    match a with
    | ⟨0, _⟩ => exact lhs_rUf_0 _ _
    | ⟨1, _⟩ => exact (lhs_rUf_1 _ _).trans hk)
  have er : dot_S128x1024_S1024x512_S128x512_1_0_0_1_n_n.rhsIdx (ix2 p j) ((ValueIdx.contrEquiv1 dot_S128x1024_S1024x512_S128x512_1_0_0_1_n_n 1024 rfl rfl).symm k) = ix2 k j := funext fun a => Fin.ext (by
    match a with
    | ⟨0, _⟩ => exact (rhs_rUf_0 _ _).trans hk
    | ⟨1, _⟩ => exact rhs_rUf_1 _ _)
  rw [el, er]

/-! ## The small payloads -/

theorem pay5_apply (x : Vec Ideal S128x512 .f32) (i : S128x512.Idx) : k0_pay5 x i = x i := rfl
theorem pay6_eq (u : Vec Ideal S1024x1536 .bf16) : k0_pay6 u = u := by
  unfold k0_pay6
  exact shapeCast_self _ _
theorem pay7_eq (u : Vec Ideal S1024x512 .bf16) : k0_pay7 u = u := by
  unfold k0_pay7
  exact shapeCast_self _ _
/-- The node block's projection by `Wf`. -/
theorem pay8_apply (x : Vec Ideal S128x512 .f32) (w : Vec Ideal S512x512 .bf16) (p : Fin 128) (j : Fin 512) :
    k0_pay8 x w (ix2 p j) = ∑ q : Fin 512, x (ix2 p q) * w (ix2 q j) := by
  unfold k0_pay8
  refine (matmul_x_Wf (k0_pay5 x) _ p j).trans ?_
  rw [shapeCast_self]
  rfl
/-- The node block's projection by `Wiou`. -/
theorem pay9_apply (x : Vec Ideal S128x512 .f32) (w : Vec Ideal S512x1536 .bf16) (p : Fin 128) (o : Fin 1536) :
    k0_pay9 x w (ix2 p o) = ∑ q : Fin 512, x (ix2 p q) * w (ix2 q o) := by
  unfold k0_pay9
  refine (matmul_x_Wiou (k0_pay5 x) _ p o).trans ?_
  rw [shapeCast_self]
  rfl
theorem pay10_apply (i : S128x1536.Idx) : k0_pay10 (F := Ideal) i = 0 := by
  unfold k0_pay10
  exact Ideal.ofBits_zero_f32
theorem pay11_apply (i : S128x512.Idx) : k0_pay11 (F := Ideal) i = 0 := by
  unfold k0_pay11
  exact Ideal.ofBits_zero_f32
end Cert.KernelIdeal.Pieces

end
-- ==== Proof.KCell.lean ====
/-
  What the kernel body leaves in its two output blocks, as the cell of the 128 nodes of the block.

  The body's two stores write, over the whole `[128, 512]` block, the new hidden states and the new cell states. Read
  at `(p, j)`: the gates' pre-activations accumulate, neighbour after neighbour from zero, each neighbour's routed
  row projected by `Uiou`, on top of the node's own projection and the bias — a sum of eight terms taken in order,
  which is the finite sum over the neighbours; the forget gates and the cell sum accumulate the same way.
-/
import proofs.«142199_j32933809225898_1_alg».proof.Proof.Gen.KernelIdeal.Frame
import proofs.«142199_j32933809225898_1_alg».proof.Proof.KLayout
import proofs.«142199_j32933809225898_1_alg».proof.Proof.KMatmul

noncomputable section

open scoped BigOperators

namespace Cert.KernelIdeal.Cell

open Cert.KernelIdeal Cert.KernelIdeal.Gen Cert.KernelIdeal.Pieces Idealize.ShloMosaic Idealize.ShloMosaic.ValueIdx Cert.TreeCell

/-! ## Reading the whole-buffer loads and the one whole-block store -/

private theorem hz1 : (![0] : Fin 1 → Nat) = fun _ => 0 := funext fun a => by fin_cases a; rfl
private theorem hz2 : (![0, 0] : Fin 2 → Nat) = fun _ => 0 := funext fun a => by fin_cases a <;> rfl
private theorem hz3 : (![0, 0, 0] : Fin 3 → Nat) = fun _ => 0 := funext fun a => by fin_cases a <;> rfl

/-- The logistic of a block, read at an index. -/
private theorem logistic_apply {s : Shape} {φ : FTy} (v : FVec Ideal s φ) (i : s.Idx) : logistic v i = Ideal.logistic (v i) := rfl
/-- The hyperbolic tangent of a block, read at an index. -/
private theorem tanh_apply {s : Shape} {φ : FTy} (v : FVec Ideal s φ) (i : s.Idx) : tanh v i = Ideal.tanh (v i) := rfl

/-! ## The gates' pre-activations: the eight neighbours' projections by `Uiou`, accumulated in order -/

section Gates
variable (uiou : FVec Ideal S1024x1536 .bf16) (h : Vec Ideal S128x8x512 .f32) (e : Vec Ideal S128x8x1 .f32) (p : Fin 128) (o : Fin 1536)

private theorem pay13_apply :
    k0_pay13 uiou h e (ix2 p o) = ∑ d : Fin 1024, routed (eRow e p) (nRow h p) 0 d * uiou (ix2 d o) := by
  unfold k0_pay13
  simp only [matmul_r_Uiou, routed0, pay6_eq]

private theorem pay17_apply (v17 v31 : FVec Ideal S128x1536 .f32) :
    k0_pay17 uiou h e v17 v31 (ix2 p o)
      = ((v17 (ix2 p o) + v31 (ix2 p o)) + ∑ d : Fin 1024, routed (eRow e p) (nRow h p) 1 d * uiou (ix2 d o)) + ∑ d : Fin 1024, routed (eRow e p) (nRow h p) 2 d * uiou (ix2 d o) := by
  unfold k0_pay17
  simp only [addf_apply, matmul_r_Uiou, routed1, routed2]

private theorem pay22_apply (v80 : FVec Ideal S128x1536 .f32) :
    k0_pay22 uiou h e v80 (ix2 p o)
      = (v80 (ix2 p o) + ∑ d : Fin 1024, routed (eRow e p) (nRow h p) 3 d * uiou (ix2 d o)) + ∑ d : Fin 1024, routed (eRow e p) (nRow h p) 4 d * uiou (ix2 d o) := by
  unfold k0_pay22
  simp only [addf_apply, matmul_r_Uiou, routed3, routed4]

private theorem pay26_apply (v128 : FVec Ideal S128x1536 .f32) :
    k0_pay26 uiou h e v128 (ix2 p o)
      = (v128 (ix2 p o) + ∑ d : Fin 1024, routed (eRow e p) (nRow h p) 5 d * uiou (ix2 d o)) + ∑ d : Fin 1024, routed (eRow e p) (nRow h p) 6 d * uiou (ix2 d o) := by
  unfold k0_pay26
  simp only [addf_apply, matmul_r_Uiou, routed5, routed6]

private theorem pay2_apply (biou : Vec Ideal S1536 .f32) (v16 v176 : FVec Ideal S128x1536 .f32) :
    k0_pay2 uiou biou v16 v176 (k0_pay28 h) (k0_pay29 e) (k0_pay30 h e) (ix2 p o)
      = (v16 (ix2 p o) + (v176 (ix2 p o) + ∑ d : Fin 1024, routed (eRow e p) (nRow h p) 7 d * uiou (ix2 d o))) + biou (ix1 o) := by
  unfold k0_pay2
  simp only [addf_apply, matmul_r_Uiou, routed7, biasRow1536_apply]

end Gates

/-! ## The forget gates and the cell sum: the eight neighbours' terms `f_k · c_k`, accumulated in order -/

section Forget
variable (uf : FVec Ideal S1024x512 .bf16) (bf : Vec Ideal S512 .f32) (h c : Vec Ideal S128x8x512 .f32) (e : Vec Ideal S128x8x1 .f32)
  (v15 : FVec Ideal S128x512 .f32) (p : Fin 128) (j : Fin 512)

private theorem pay15_apply (v18 : FVec Ideal S128x512 .f32) :
    k0_pay15 uf bf h c e v15 v18 (k0_pay12 h e) (ix2 p j)
      = (v18 (ix2 p j) + Ideal.logistic ((v15 (ix2 p j) + ∑ d : Fin 1024, routed (eRow e p) (nRow h p) 0 d * uf (ix2 d j)) + bf (ix1 j)) * c (ix3 p 0 j)) + Ideal.logistic ((v15 (ix2 p j) + ∑ d : Fin 1024, routed (eRow e p) (nRow h p) 1 d * uf (ix2 d j)) + bf (ix1 j)) * c (ix3 p 1 j) := by
  unfold k0_pay15
  simp only [addf_apply, mulf_apply, logistic_apply, matmul_r_Uf, routed0, routed1, biasRow512_apply, sliceRow_apply 0 (by omega), sliceRow_apply 1 (by omega)]
  rfl

private theorem pay18_apply :
    k0_pay18 uf h e v15 (ix2 p j) = v15 (ix2 p j) + ∑ d : Fin 1024, routed (eRow e p) (nRow h p) 2 d * uf (ix2 d j) := by
  unfold k0_pay18
  simp only [addf_apply, matmul_r_Uf, routed2]

private theorem pay23_apply (v66 v82 v84 : FVec Ideal S128x512 .f32) :
    k0_pay23 uf bf h c e v15 v66 v82 v84 (ix2 p j)
      = ((v66 (ix2 p j) + Ideal.logistic (v82 (ix2 p j) + v84 (ix2 p j)) * c (ix3 p 2 j)) + Ideal.logistic ((v15 (ix2 p j) + ∑ d : Fin 1024, routed (eRow e p) (nRow h p) 3 d * uf (ix2 d j)) + bf (ix1 j)) * c (ix3 p 3 j)) + Ideal.logistic ((v15 (ix2 p j) + ∑ d : Fin 1024, routed (eRow e p) (nRow h p) 4 d * uf (ix2 d j)) + bf (ix1 j)) * c (ix3 p 4 j) := by
  unfold k0_pay23
  simp only [addf_apply, mulf_apply, logistic_apply, matmul_r_Uf, routed3, routed4, biasRow512_apply, sliceRow_apply 2 (by omega), sliceRow_apply 3 (by omega), sliceRow_apply 4 (by omega)]
  rfl

private theorem pay27_apply (v138 : FVec Ideal S128x512 .f32) :
    k0_pay27 uf bf h c e v15 v138 (ix2 p j)
      = (v138 (ix2 p j) + Ideal.logistic ((v15 (ix2 p j) + ∑ d : Fin 1024, routed (eRow e p) (nRow h p) 5 d * uf (ix2 d j)) + bf (ix1 j)) * c (ix3 p 5 j)) + Ideal.logistic ((v15 (ix2 p j) + ∑ d : Fin 1024, routed (eRow e p) (nRow h p) 6 d * uf (ix2 d j)) + bf (ix1 j)) * c (ix3 p 6 j) := by
  unfold k0_pay27
  simp only [addf_apply, mulf_apply, logistic_apply, matmul_r_Uf, routed5, routed6, biasRow512_apply, sliceRow_apply 5 (by omega), sliceRow_apply 6 (by omega)]
  rfl

end Forget

/-! ## The two stored payloads over their accumulators -/

section Stored
variable (v7 : FVec Ideal S1024x1536 .bf16) (v9 : FVec Ideal S1024x512 .bf16) (v10 : Vec Ideal S1536 .f32) (v11 : Vec Ideal S512 .f32)
  (v13 : Vec Ideal S128x8x512 .f32) (v15 : FVec Ideal S128x512 .f32) (v16 v176 : FVec Ideal S128x1536 .f32) (v186 : FVec Ideal S128x512 .f32)

/-- The stored cell block: the input gate's column `j` and the update gate's column `j + 1024` of the gates' block,
    and the last neighbour's forget term on top of the accumulated cell sum. -/
private theorem pay3_apply (h : Vec Ideal S128x8x512 .f32) (e : Vec Ideal S128x8x1 .f32) (p : Fin 128) (j : Fin 512) :
    k0_pay3 v7 v9 v10 v11 v13 v15 v16 v176 v186 (k0_pay28 h) (k0_pay29 e) (k0_pay30 h e) (ix2 p j)
      = Ideal.logistic (k0_pay2 v7 v10 v16 v176 (k0_pay28 h) (k0_pay29 e) (k0_pay30 h e) (ix2 p (⟨j.val, by omega⟩ : Fin 1536)))
          * Ideal.tanh (k0_pay2 v7 v10 v16 v176 (k0_pay28 h) (k0_pay29 e) (k0_pay30 h e) (ix2 p (⟨j.val + 1024, by omega⟩ : Fin 1536)))
        + (v186 (ix2 p j)
          + Ideal.logistic ((v15 (ix2 p j) + ∑ d : Fin 1024, routed (eRow e p) (nRow h p) 7 d * v9 (ix2 d j)) + v11 (ix1 j)) * v13 (ix3 p 7 j)) := by
  have e0 : (⟨0 + j.val, by omega⟩ : Fin 1536) = ⟨j.val, by omega⟩ := Fin.ext (Nat.zero_add _)
  have e2 : (⟨1024 + j.val, by omega⟩ : Fin 1536) = ⟨j.val + 1024, by omega⟩ := Fin.ext (Nat.add_comm _ _)
  unfold k0_pay3
  simp only [addf_apply, mulf_apply, logistic_apply, tanh_apply, matmul_r_Uf, routed7, biasRow512_apply, sliceRow_apply 7 (by omega),
    sliceCols_apply 0 (by omega), sliceCols_apply 1024 (by omega), e0, e2]
  rfl

/-- The stored hidden block: the output gate's column `j + 512` of the gates' block, times the tanh of the stored cell. -/
private theorem pay4_apply (v188 : FVec Ideal S128x512 .f32) (v190 : FVec Ideal S128x1 .f32) (v192 : FVec Ideal S128x512 .f32) (p : Fin 128) (j : Fin 512) :
    k0_pay4 v7 v9 v10 v11 v13 v15 v16 v176 v186 v188 v190 v192 (ix2 p j)
      = Ideal.logistic (k0_pay2 v7 v10 v16 v176 v188 v190 v192 (ix2 p (⟨j.val + 512, by omega⟩ : Fin 1536)))
          * Ideal.tanh (k0_pay3 v7 v9 v10 v11 v13 v15 v16 v176 v186 v188 v190 v192 (ix2 p j)) := by
  have e1 : (⟨512 + j.val, by omega⟩ : Fin 1536) = ⟨j.val + 512, by omega⟩ := Fin.ext (Nat.add_comm _ _)
  unfold k0_pay4
  simp only [mulf_apply, logistic_apply, tanh_apply, sliceCols_apply 512 (by omega), e1]

end Stored

variable (x : Vec Ideal S128x512 .f32) (h c : Vec Ideal S128x8x512 .f32) (e : Vec Ideal S128x8x1 .f32)
  (wiou : Vec Ideal S512x1536 .bf16) (wf : Vec Ideal S512x512 .bf16) (uiou : Vec Ideal S1024x1536 .bf16) (uf : Vec Ideal S1024x512 .bf16)
  (biou : Vec Ideal S1536 .f32) (bf : Vec Ideal S512 .f32)

/-- The gates' block of the body over the loaded blocks, read at `(p, o)`, is node `p`'s gate `o`: the eight
    projections accumulated from zero in order are the sum over the eight neighbours. -/
private theorem gates_apply (p : Fin 128) (o : Fin 1536) :
    k0_pay2 uiou biou (k0_pay9 x wiou) (k0_pay26 uiou h e (k0_pay22 uiou h e (k0_pay17 uiou h e (k0_pay10 (F := Ideal)) (k0_pay13 uiou h e)))) (k0_pay28 h) (k0_pay29 e) (k0_pay30 h e) (ix2 p o)
      = gatesArr (n := 128) x h e wiou uiou biou p o := by
  rw [pay2_apply, pay26_apply, pay22_apply, pay17_apply, pay13_apply, pay9_apply, pay10_apply, zero_add]
  unfold gatesArr gates
  rw [Fin.sum_univ_eight]

/-- The stored cell block read at `(p, j)` is node `p`'s new cell state at column `j`: the eight terms `f_k · c_k`
    accumulated from zero in order are the sum over the eight neighbours. -/
private theorem cell_apply (p : Fin 128) (j : Fin 512) :
    k0_pay3 uiou uf biou bf c (k0_pay8 x wf) (k0_pay9 x wiou) (k0_pay26 uiou h e (k0_pay22 uiou h e (k0_pay17 uiou h e (k0_pay10 (F := Ideal)) (k0_pay13 uiou h e)))) (k0_pay27 uf bf h c e (k0_pay8 x wf) (k0_pay23 uf bf h c e (k0_pay8 x wf) (k0_pay15 uf bf h c e (k0_pay8 x wf) (k0_pay11 (F := Ideal)) (k0_pay12 h e)) (k0_pay18 uf h e (k0_pay8 x wf)) (k0_pay19 bf))) (k0_pay28 h) (k0_pay29 e) (k0_pay30 h e) (ix2 p j)
      = cellOver (fun q => x (ix2 p q)) (eRow e p) (nRow h p) (fun k j => c (ix3 p k j)) (fun q j => wf (ix2 q j)) (fun d j => uf (ix2 d j))
          (fun j => bf (ix1 j)) (gatesArr (n := 128) x h e wiou uiou biou p) j := by
  rw [pay3_apply, gates_apply, gates_apply, pay27_apply, pay23_apply, pay15_apply, pay18_apply, pay19_apply, pay11_apply, pay8_apply, zero_add]
  unfold cellOver forget
  rw [Fin.sum_univ_eight]

/-- The block the body leaves in the cell-state window is the new cell states of the block's 128 nodes. -/
theorem out11_eq : out0_11 x h c e wiou wf uiou uf biou bf = cellArr (n := 128) x h c e wiou wf uiou uf biou bf := by
  funext i
  obtain ⟨p, j, rfl⟩ : ∃ (p : Fin 128) (j : Fin 512), i = ix2 p j := ⟨i 0, i 1, eq_ix2 i⟩
  -- one store over the whole block, every load a whole buffer: what is left is the stored payload at `(p, j)`
  unfold out0_11
  rw [View.canon_unit_zero hz2]
  simp only [View.ld_unit_zero (S := S128x512) hz2, View.ld_unit_zero (S := S512x512) hz2, View.ld_unit_zero (S := S512x1536) hz2,
    View.ld_unit_zero (S := S1024x1536) hz2, View.ld_unit_zero (S := S1024x512) hz2, View.ld_unit_zero (S := S1536) hz1,
    View.ld_unit_zero (S := S512) hz1, View.ld_unit_zero (S := S128x8x512) hz3, View.ld_unit_zero (S := S128x8x1) hz3, pay6_eq, pay7_eq]
  exact cell_apply x h c e wiou wf uiou uf biou bf p j

/-- The block the body leaves in the hidden-state window is the new hidden states of the block's 128 nodes. -/
theorem out10_eq : out0_10 x h c e wiou wf uiou uf biou bf = hiddenArr (n := 128) x h c e wiou wf uiou uf biou bf := by
  funext i
  obtain ⟨p, j, rfl⟩ : ∃ (p : Fin 128) (j : Fin 512), i = ix2 p j := ⟨i 0, i 1, eq_ix2 i⟩
  -- one store over the whole block, every load a whole buffer: what is left is the stored payload at `(p, j)`
  unfold out0_10
  rw [View.canon_unit_zero hz2]
  simp only [View.ld_unit_zero (S := S128x512) hz2, View.ld_unit_zero (S := S512x512) hz2, View.ld_unit_zero (S := S512x1536) hz2,
    View.ld_unit_zero (S := S1024x1536) hz2, View.ld_unit_zero (S := S1024x512) hz2, View.ld_unit_zero (S := S1536) hz1,
    View.ld_unit_zero (S := S512) hz1, View.ld_unit_zero (S := S128x8x512) hz3, View.ld_unit_zero (S := S128x8x1) hz3, pay6_eq, pay7_eq]
  -- the output gate's column of the gates' block, times the tanh of the stored cell
  rw [pay4_apply, gates_apply, cell_apply]
  rfl

end Cert.KernelIdeal.Cell

end
-- ==== Proof.KRun.lean ====
/-
  The kernel's run: after it, the two result arrays hold the new hidden and cell states of all 8192 nodes.

  Grid point `t` works on nodes `128 t … 128 t + 127`: every input window with a node axis hands the body rows
  `128 t + p` of its array, the weights and biases are handed whole (the host converts the four weight matrices to
  a narrower float format first, which changes nothing at the ideal instance), and the two output windows write
  back rows `128 t + p`. The 64 blocks cover the arrays, so each result array is the cell function of the whole
  argument arrays.
-/
import proofs.«142199_j32933809225898_1_alg».proof.Proof.Gen.KernelIdeal.Value
import proofs.«142199_j32933809225898_1_alg».proof.Proof.KCell

noncomputable section

namespace Cert.KernelIdeal.RunSpec

open Cert.KernelIdeal Cert.KernelIdeal.Gen Idealize.ShloMosaic Idealize.ShloMosaic.TcCoe Idealize.SL.Sem Idealize.ShloMosaic.ValueIdx Cert.TreeCell
open Idealize.ShloMosaic.Pipeline (Dat)

variable (m : (ℓ : Loc nD τ sig) → Buf (Elt Ideal) ℓ) (ρ : Dev nD → PrngReg)

/-- The windows' index maps over the 64 grid points: the four node-indexed inputs and the two outputs are at
    block t on the node axis and at block 0 on the others, the weights and biases at block 0. -/
private theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 1) = 0
    ∧ win0_9.index t (0 : Fin 1) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- Row p of the input block at point t is row 128 t + p of the input array. -/
private theorem x_read (c : Dev nD) (t : Fin cfg0.N) (p : Fin 128) (q : Fin 512) (hr : 128 * t.val + p.val < 8192) :
    (iblk m c 0 t : S128x512.Idx → EReal) (ix2 p q) = (m ((c : Thread nD τ).loc main_arg0) : S8192x512.Idx → EReal) (ix2 ⟨128 * t.val + p.val, hr⟩ q) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 128 + 1 * p.val = 128 * t.val + p.val; omega
  | ⟨1, _⟩ => show win0_0.index t (1 : Fin 2) * 512 + 1 * q.val = q.val; omega

/-- Row p of the neighbours' hidden-state block at point t is row 128 t + p of the array. -/
private theorem h_read (c : Dev nD) (t : Fin cfg0.N) (p : Fin 128) (k : Fin 8) (q : Fin 512) (hr : 128 * t.val + p.val < 8192) :
    (iblk m c 1 t : S128x8x512.Idx → EReal) (ix3 p k q) = (m ((c : Thread nD τ).loc main_arg1) : S8192x8x512.Idx → EReal) (ix3 ⟨128 * t.val + p.val, hr⟩ k q) := by
  obtain ⟨-, -, e0, e1, e2, -⟩ := idx_facts t
  unfold iblk
  rw [View.read_apply]
  show V m c main_arg1 _ = _
  rw [V_main_arg1]
  congr 1
  funext a
  apply Fin.ext
  match a with
  | ⟨0, _⟩ => show win0_1.index t (0 : Fin 3) * 128 + 1 * p.val = 128 * t.val + p.val; omega
  | ⟨1, _⟩ => show win0_1.index t (1 : Fin 3) * 8 + 1 * k.val = k.val; omega
  | ⟨2, _⟩ => show win0_1.index t (2 : Fin 3) * 512 + 1 * q.val = q.val; omega

/-- Row p of the neighbours' cell-state block at point t is row 128 t + p of the array. -/
private theorem c_read (c : Dev nD) (t : Fin cfg0.N) (p : Fin 128) (k : Fin 8) (q : Fin 512) (hr : 128 * t.val + p.val < 8192) :
    (iblk m c 2 t : S128x8x512.Idx → EReal) (ix3 p k q) = (m ((c : Thread nD τ).loc main_arg2) : S8192x8x512.Idx → EReal) (ix3 ⟨128 * t.val + p.val, hr⟩ k q) := by
  obtain ⟨-, -, -, -, -, e0, e1, e2, -⟩ := idx_facts t
  unfold iblk
  rw [View.read_apply]
  show V m c main_arg2 _ = _
  rw [V_main_arg2]
  congr 1
  funext a
  apply Fin.ext
  match a with
  | ⟨0, _⟩ => show win0_2.index t (0 : Fin 3) * 128 + 1 * p.val = 128 * t.val + p.val; omega
  | ⟨1, _⟩ => show win0_2.index t (1 : Fin 3) * 8 + 1 * k.val = k.val; omega
  | ⟨2, _⟩ => show win0_2.index t (2 : Fin 3) * 512 + 1 * q.val = q.val; omega

/-- Row p of the labels' block at point t is row 128 t + p of the array. -/
private theorem e_read (c : Dev nD) (t : Fin cfg0.N) (p : Fin 128) (k : Fin 8) (q : Fin 1) (hr : 128 * t.val + p.val < 8192) :
    (iblk m c 3 t : S128x8x1.Idx → EReal) (ix3 p k q) = (m ((c : Thread nD τ).loc main_arg3) : S8192x8x1.Idx → EReal) (ix3 ⟨128 * t.val + p.val, hr⟩ k q) := by
  obtain ⟨-, -, -, -, -, -, -, -, e0, e1, e2, -⟩ := idx_facts t
  unfold iblk
  rw [View.read_apply]
  show V m c main_arg3 _ = _
  rw [V_main_arg3]
  congr 1
  funext a
  apply Fin.ext
  match a with
  | ⟨0, _⟩ => show win0_3.index t (0 : Fin 3) * 128 + 1 * p.val = 128 * t.val + p.val; omega
  | ⟨1, _⟩ => show win0_3.index t (1 : Fin 3) * 8 + 1 * k.val = k.val; omega
  | ⟨2, _⟩ => show win0_3.index t (2 : Fin 3) * 1 + 1 * q.val = q.val; omega

open Idealize.ShloMosaic.Tactic in
/-- The host narrows the input-projection weights for the gates before the kernel runs; at the ideal instance the
    narrowed array is the argument. -/
private theorem V_wiou (c : Dev nD) : (V m c main_v0 : S512x1536.Idx → EReal) = m ((c : Thread nD τ).loc main_arg4) := by
  dsimp only [Gen.V, Gen.hostOps0]; after_results; rfl

open Idealize.ShloMosaic.Tactic in
/-- The same for the input-projection weights of the forget gates. -/
private theorem V_wf (c : Dev nD) : (V m c main_v1 : S512x512.Idx → EReal) = m ((c : Thread nD τ).loc main_arg5) := by
  dsimp only [Gen.V, Gen.hostOps0]; after_results; rfl

open Idealize.ShloMosaic.Tactic in
/-- The same for the neighbour-projection weights of the gates. -/
private theorem V_uiou (c : Dev nD) : (V m c main_v2 : S1024x1536.Idx → EReal) = m ((c : Thread nD τ).loc main_arg6) := by
  dsimp only [Gen.V, Gen.hostOps0]; after_results; rfl

open Idealize.ShloMosaic.Tactic in
/-- The same for the neighbour-projection weights of the forget gates. -/
private theorem V_uf (c : Dev nD) : (V m c main_v3 : S1024x512.Idx → EReal) = m ((c : Thread nD τ).loc main_arg7) := by
  dsimp only [Gen.V, Gen.hostOps0]; after_results; rfl

/-- Every point's block of the gates' input-projection weights is the whole argument. -/
private theorem wiou_read (c : Dev nD) (t : Fin cfg0.N) :
    (iblk m c 4 t : S512x1536.Idx → EReal) = (m ((c : Thread nD τ).loc main_arg4) : S512x1536.Idx → EReal) := by
  obtain ⟨-, -, -, -, -, -, -, -, -, -, -, e0, e1, -⟩ := idx_facts t
  funext y
  unfold iblk
  rw [View.read_apply]
  show V m c main_v0 _ = _
  rw [V_wiou]
  congr 1
  funext a
  apply Fin.ext
  match a with
  | ⟨0, _⟩ => show win0_4.index t (0 : Fin 2) * 512 + 1 * (y 0).val = (y 0).val; omega
  | ⟨1, _⟩ => show win0_4.index t (1 : Fin 2) * 1536 + 1 * (y 1).val = (y 1).val; omega

/-- Every point's block of the forget gates' input-projection weights is the whole argument. -/
private theorem wf_read (c : Dev nD) (t : Fin cfg0.N) :
    (iblk m c 5 t : S512x512.Idx → EReal) = (m ((c : Thread nD τ).loc main_arg5) : S512x512.Idx → EReal) := by
  obtain ⟨-, -, -, -, -, -, -, -, -, -, -, -, -, e0, e1, -⟩ := idx_facts t
  funext y
  unfold iblk
  rw [View.read_apply]
  show V m c main_v1 _ = _
  rw [V_wf]
  congr 1
  funext a
  apply Fin.ext
  match a with
  | ⟨0, _⟩ => show win0_5.index t (0 : Fin 2) * 512 + 1 * (y 0).val = (y 0).val; omega
  | ⟨1, _⟩ => show win0_5.index t (1 : Fin 2) * 512 + 1 * (y 1).val = (y 1).val; omega

/-- Every point's block of the gates' neighbour-projection weights is the whole argument. -/
private theorem uiou_read (c : Dev nD) (t : Fin cfg0.N) :
    (iblk m c 6 t : S1024x1536.Idx → EReal) = (m ((c : Thread nD τ).loc main_arg6) : S1024x1536.Idx → EReal) := by
  obtain ⟨-, -, -, -, -, -, -, -, -, -, -, -, -, -, -, e0, e1, -⟩ := idx_facts t
  funext y
  unfold iblk
  rw [View.read_apply]
  show V m c main_v2 _ = _
  rw [V_uiou]
  congr 1
  funext a
  apply Fin.ext
  match a with
  | ⟨0, _⟩ => show win0_6.index t (0 : Fin 2) * 1024 + 1 * (y 0).val = (y 0).val; omega
  | ⟨1, _⟩ => show win0_6.index t (1 : Fin 2) * 1536 + 1 * (y 1).val = (y 1).val; omega

/-- Every point's block of the forget gates' neighbour-projection weights is the whole argument. -/
private theorem uf_read (c : Dev nD) (t : Fin cfg0.N) :
    (iblk m c 7 t : S1024x512.Idx → EReal) = (m ((c : Thread nD τ).loc main_arg7) : S1024x512.Idx → EReal) := by
  obtain ⟨-, -, -, -, -, -, -, -, -, -, -, -, -, -, -, -, -, e0, e1, -⟩ := idx_facts t
  funext y
  unfold iblk
  rw [View.read_apply]
  show V m c main_v3 _ = _
  rw [V_uf]
  congr 1
  funext a
  apply Fin.ext
  match a with
  | ⟨0, _⟩ => show win0_7.index t (0 : Fin 2) * 1024 + 1 * (y 0).val = (y 0).val; omega
  | ⟨1, _⟩ => show win0_7.index t (1 : Fin 2) * 512 + 1 * (y 1).val = (y 1).val; omega

/-- Every point's block of the gates' bias is the whole argument. -/
private theorem biou_read (c : Dev nD) (t : Fin cfg0.N) :
    (iblk m c 8 t : S1536.Idx → EReal) = (m ((c : Thread nD τ).loc main_arg8) : S1536.Idx → EReal) := by
  obtain ⟨-, -, -, -, -, -, -, -, -, -, -, -, -, -, -, -, -, -, -, e0, -⟩ := idx_facts t
  funext y
  unfold iblk
  rw [View.read_apply]
  show V m c main_arg8 _ = _
  rw [V_main_arg8]
  congr 1
  funext a
  apply Fin.ext
  match a with
  | ⟨0, _⟩ => show win0_8.index t (0 : Fin 1) * 1536 + 1 * (y 0).val = (y 0).val; omega

/-- Every point's block of the forget gates' bias is the whole argument. -/
private theorem bf_read (c : Dev nD) (t : Fin cfg0.N) :
    (iblk m c 9 t : S512.Idx → EReal) = (m ((c : Thread nD τ).loc main_arg9) : S512.Idx → EReal) := by
  obtain ⟨-, -, -, -, -, -, -, -, -, -, -, -, -, -, -, -, -, -, -, -, e0, -⟩ := idx_facts t
  funext y
  unfold iblk
  rw [View.read_apply]
  show V m c main_arg9 _ = _
  rw [V_main_arg9]
  congr 1
  funext a
  apply Fin.ext
  match a with
  | ⟨0, _⟩ => show win0_9.index t (0 : Fin 1) * 512 + 1 * (y 0).val = (y 0).val; omega

section Rows

variable {n n' : ℕ}
  (x : (⟨2, ![n, 512]⟩ : Shape).Idx → EReal) (h c : (⟨3, ![n, 8, 512]⟩ : Shape).Idx → EReal) (e : (⟨3, ![n, 8, 1]⟩ : Shape).Idx → EReal)
  (X : (⟨2, ![n', 512]⟩ : Shape).Idx → EReal) (H C : (⟨3, ![n', 8, 512]⟩ : Shape).Idx → EReal) (E : (⟨3, ![n', 8, 1]⟩ : Shape).Idx → EReal)
  (wiou : (⟨2, ![512, 1536]⟩ : Shape).Idx → EReal) (wf : (⟨2, ![512, 512]⟩ : Shape).Idx → EReal)
  (uiou : (⟨2, ![1024, 1536]⟩ : Shape).Idx → EReal) (uf : (⟨2, ![1024, 512]⟩ : Shape).Idx → EReal)
  (biou : (⟨1, ![1536]⟩ : Shape).Idx → EReal) (bf : (⟨1, ![512]⟩ : Shape).Idx → EReal)

/-- The new cell state of a node depends on the node's own rows only: two families of arrays that agree on row r
    of the one and row r' of the other give the same cell state there. -/
private theorem cellArr_row (r : Fin n) (r' : Fin n') (j : Fin 512)
    (hx : ∀ q, x (ix2 r q) = X (ix2 r' q)) (hh : ∀ k q, h (ix3 r k q) = H (ix3 r' k q))
    (hc : ∀ k q, c (ix3 r k q) = C (ix3 r' k q)) (he : ∀ k, e (ix3 r k (0 : Fin 1)) = E (ix3 r' k (0 : Fin 1))) :
    cellArr x h c e wiou wf uiou uf biou bf (ix2 r j) = cellArr X H C E wiou wf uiou uf biou bf (ix2 r' j) := by
  have e1 : (fun q => x (ix2 r q)) = fun q => X (ix2 r' q) := funext hx
  have e2 : (fun k q => h (ix3 r k q)) = fun k q => H (ix3 r' k q) := funext fun k => funext (hh k)
  have e3 : (fun k q => c (ix3 r k q)) = fun k q => C (ix3 r' k q) := funext fun k => funext (hc k)
  have e4 : (fun k => e (ix3 r k (0 : Fin 1))) = fun k => E (ix3 r' k (0 : Fin 1)) := funext he
  show cellOver (fun q => x (ix2 r q)) (fun k => e (ix3 r k (0 : Fin 1))) (fun k q => h (ix3 r k q)) (fun k q => c (ix3 r k q))
      (fun q j => wf (ix2 q j)) (fun d j => uf (ix2 d j)) (fun j => bf (ix1 j))
      (gates (fun q => x (ix2 r q)) (fun k => e (ix3 r k (0 : Fin 1))) (fun k q => h (ix3 r k q))
        (fun q o => wiou (ix2 q o)) (fun d o => uiou (ix2 d o)) (fun o => biou (ix1 o))) j
    = cellOver (fun q => X (ix2 r' q)) (fun k => E (ix3 r' k (0 : Fin 1))) (fun k q => H (ix3 r' k q)) (fun k q => C (ix3 r' k q))
      (fun q j => wf (ix2 q j)) (fun d j => uf (ix2 d j)) (fun j => bf (ix1 j))
      (gates (fun q => X (ix2 r' q)) (fun k => E (ix3 r' k (0 : Fin 1))) (fun k q => H (ix3 r' k q))
        (fun q o => wiou (ix2 q o)) (fun d o => uiou (ix2 d o)) (fun o => biou (ix1 o))) j
  rw [e1, e2, e3, e4]

/-- The same for the new hidden state. -/
private theorem hiddenArr_row (r : Fin n) (r' : Fin n') (j : Fin 512)
    (hx : ∀ q, x (ix2 r q) = X (ix2 r' q)) (hh : ∀ k q, h (ix3 r k q) = H (ix3 r' k q))
    (hc : ∀ k q, c (ix3 r k q) = C (ix3 r' k q)) (he : ∀ k, e (ix3 r k (0 : Fin 1)) = E (ix3 r' k (0 : Fin 1))) :
    hiddenArr x h c e wiou wf uiou uf biou bf (ix2 r j) = hiddenArr X H C E wiou wf uiou uf biou bf (ix2 r' j) := by
  have e1 : (fun q => x (ix2 r q)) = fun q => X (ix2 r' q) := funext hx
  have e2 : (fun k q => h (ix3 r k q)) = fun k q => H (ix3 r' k q) := funext fun k => funext (hh k)
  have e3 : (fun k q => c (ix3 r k q)) = fun k q => C (ix3 r' k q) := funext fun k => funext (hc k)
  have e4 : (fun k => e (ix3 r k (0 : Fin 1))) = fun k => E (ix3 r' k (0 : Fin 1)) := funext he
  show hiddenOver (fun q => x (ix2 r q)) (fun k => e (ix3 r k (0 : Fin 1))) (fun k q => h (ix3 r k q)) (fun k q => c (ix3 r k q))
      (fun q j => wf (ix2 q j)) (fun d j => uf (ix2 d j)) (fun j => bf (ix1 j))
      (gates (fun q => x (ix2 r q)) (fun k => e (ix3 r k (0 : Fin 1))) (fun k q => h (ix3 r k q))
        (fun q o => wiou (ix2 q o)) (fun d o => uiou (ix2 d o)) (fun o => biou (ix1 o))) j
    = hiddenOver (fun q => X (ix2 r' q)) (fun k => E (ix3 r' k (0 : Fin 1))) (fun k q => H (ix3 r' k q)) (fun k q => C (ix3 r' k q))
      (fun q j => wf (ix2 q j)) (fun d j => uf (ix2 d j)) (fun j => bf (ix1 j))
      (gates (fun q => X (ix2 r' q)) (fun k => E (ix3 r' k (0 : Fin 1))) (fun k q => H (ix3 r' k q))
        (fun q o => wiou (ix2 q o)) (fun d o => uiou (ix2 d o)) (fun o => biou (ix1 o))) j
  rw [e1, e2, e3, e4]

end Rows

/-- What point t writes back to the cell-state array is block t of the cell-states of the whole argument arrays: the
    block's row p is node 128 t + p, whose rows the input blocks hold, and the weights and biases are whole. -/
private theorem flushed11_eq (c : Dev nD) (t : Fin cfg0.N) :
    (dats m 0 c).flushed 11 t = ((cfg0.win 11).blk t).view.read (Elt Ideal)
      (cellArr (n := 8192) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [Cert.KernelIdeal.Value.flushed11, Cert.KernelIdeal.Cell.out11_eq]
  obtain ⟨-, -, -, -, -, -, -, -, -, -, -, -, -, -, -, -, -, -, -, -, -, -, -, e0, e1⟩ := idx_facts t
  have ht : t.val < 64 := lt_of_lt_of_eq t.isLt N_0
  refine funext fun (y : S128x512.Idx) => ?_
  obtain ⟨p, j, rfl⟩ : ∃ (p : Fin 128) (j : Fin 512), y = ix2 p j := ⟨y 0, y 1, eq_ix2 (n0 := 128) (n1 := 512) y⟩
  have hp : p.val < 128 := p.isLt
  have hr : 128 * t.val + p.val < 8192 := by omega
  have hemb : ((cfg0.win 11).blk t).view.emb (ix2 p j) = (ix2 ⟨128 * t.val + p.val, hr⟩ j : S8192x512.Idx) := by
    funext a
    apply Fin.ext
    match a with
    | ⟨0, _⟩ => show win0_11.index t (0 : Fin 2) * 128 + 1 * p.val = 128 * t.val + p.val; omega
    | ⟨1, _⟩ => show win0_11.index t (1 : Fin 2) * 512 + 1 * j.val = j.val; omega
  rw [View.read_apply, hemb]
  show cellArr (n := 128) (iblk m c 0 t) (iblk m c 1 t) (iblk m c 2 t) (iblk m c 3 t) (iblk m c 4 t) (iblk m c 5 t) (iblk m c 6 t) (iblk m c 7 t) (iblk m c 8 t) (iblk m c 9 t) (ix2 p j) = _
  rw [wiou_read, wf_read, uiou_read, uf_read, biou_read, bf_read]
  exact cellArr_row _ _ _ _ _ _ _ _ _ _ _ _ _ _ p ⟨128 * t.val + p.val, hr⟩ j (fun q => x_read m c t p q hr)
    (fun k q => h_read m c t p k q hr) (fun k q => c_read m c t p k q hr) (fun k => e_read m c t p k 0 hr)

/-- An index of the cell-state array is in point t's block iff each coordinate is in the block's range on its axis. -/
private theorem mem_blk11 (t : Fin cfg0.N) (i : S8192x512.Idx) :
    i ∈ ((cfg0.win 11).blk t).view.set ↔ ∀ a : Fin 2, win0_11.index t a * S128x512.size a ≤ (i a).val ∧ (i a).val < win0_11.index t a * S128x512.size a + S128x512.size a := by
  show i ∈ ((View.whole main_v4_1).slice (win0_11.rect t)).set ↔ _
  rw [View.set_slice_whole, Rect.mem_set_unit]
  exact Iff.rfl

/-- Every index of the cell-state array is in some point's block: node r is in the block of point r / 128. -/
private theorem cover11 (i : S8192x512.Idx) :
    ∃ t : Fin cfg0.N, (cfg0.win 11).flush t = true ∧ i ∈ ((cfg0.win 11).blk t).view.set := by
  have hi0 : (i 0).val < 8192 := (i 0).isLt
  have hi1 : (i 1).val < 512 := (i 1).isLt
  obtain ⟨t, htv⟩ : ∃ t : Fin cfg0.N, t.val = (i 0).val / 128 :=
    ⟨⟨(i 0).val / 128, lt_of_lt_of_eq (by omega : (i 0).val / 128 < 64) N_0.symm⟩, rfl⟩
  obtain ⟨-, -, -, -, -, -, -, -, -, -, -, -, -, -, -, -, -, -, -, -, -, -, -, e0, e1⟩ := idx_facts t
  refine ⟨t, flush0_11 t, ?_⟩
  rw [mem_blk11]
  intro a
  match a with
  | ⟨0, _⟩ => show win0_11.index t (0 : Fin 2) * 128 ≤ (i 0).val ∧ (i 0).val < win0_11.index t (0 : Fin 2) * 128 + 128; omega
  | ⟨1, _⟩ => show win0_11.index t (1 : Fin 2) * 512 ≤ (i 1).val ∧ (i 1).val < win0_11.index t (1 : Fin 2) * 512 + 512; omega

/-- What point t writes back to the hidden-state array is block t of the hidden-states of the whole argument arrays: the
    block's row p is node 128 t + p, whose rows the input blocks hold, and the weights and biases are whole. -/
private theorem flushed10_eq (c : Dev nD) (t : Fin cfg0.N) :
    (dats m 0 c).flushed 10 t = ((cfg0.win 10).blk t).view.read (Elt Ideal)
      (hiddenArr (n := 8192) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [Cert.KernelIdeal.Value.flushed10, Cert.KernelIdeal.Cell.out10_eq]
  obtain ⟨-, -, -, -, -, -, -, -, -, -, -, -, -, -, -, -, -, -, -, -, -, e0, e1, -⟩ := idx_facts t
  have ht : t.val < 64 := lt_of_lt_of_eq t.isLt N_0
  refine funext fun (y : S128x512.Idx) => ?_
  obtain ⟨p, j, rfl⟩ : ∃ (p : Fin 128) (j : Fin 512), y = ix2 p j := ⟨y 0, y 1, eq_ix2 (n0 := 128) (n1 := 512) y⟩
  have hp : p.val < 128 := p.isLt
  have hr : 128 * t.val + p.val < 8192 := by omega
  have hemb : ((cfg0.win 10).blk t).view.emb (ix2 p j) = (ix2 ⟨128 * t.val + p.val, hr⟩ j : S8192x512.Idx) := by
    funext a
    apply Fin.ext
    match a with
    | ⟨0, _⟩ => show win0_10.index t (0 : Fin 2) * 128 + 1 * p.val = 128 * t.val + p.val; omega
    | ⟨1, _⟩ => show win0_10.index t (1 : Fin 2) * 512 + 1 * j.val = j.val; omega
  rw [View.read_apply, hemb]
  show hiddenArr (n := 128) (iblk m c 0 t) (iblk m c 1 t) (iblk m c 2 t) (iblk m c 3 t) (iblk m c 4 t) (iblk m c 5 t) (iblk m c 6 t) (iblk m c 7 t) (iblk m c 8 t) (iblk m c 9 t) (ix2 p j) = _
  rw [wiou_read, wf_read, uiou_read, uf_read, biou_read, bf_read]
  exact hiddenArr_row _ _ _ _ _ _ _ _ _ _ _ _ _ _ p ⟨128 * t.val + p.val, hr⟩ j (fun q => x_read m c t p q hr)
    (fun k q => h_read m c t p k q hr) (fun k q => c_read m c t p k q hr) (fun k => e_read m c t p k 0 hr)

/-- An index of the hidden-state array is in point t's block iff each coordinate is in the block's range on its axis. -/
private theorem mem_blk10 (t : Fin cfg0.N) (i : S8192x512.Idx) :
    i ∈ ((cfg0.win 10).blk t).view.set ↔ ∀ a : Fin 2, win0_10.index t a * S128x512.size a ≤ (i a).val ∧ (i a).val < win0_10.index t a * S128x512.size a + S128x512.size a := by
  show i ∈ ((View.whole main_v4_0).slice (win0_10.rect t)).set ↔ _
  rw [View.set_slice_whole, Rect.mem_set_unit]
  exact Iff.rfl

/-- Every index of the hidden-state array is in some point's block: node r is in the block of point r / 128. -/
private theorem cover10 (i : S8192x512.Idx) :
    ∃ t : Fin cfg0.N, (cfg0.win 10).flush t = true ∧ i ∈ ((cfg0.win 10).blk t).view.set := by
  have hi0 : (i 0).val < 8192 := (i 0).isLt
  have hi1 : (i 1).val < 512 := (i 1).isLt
  obtain ⟨t, htv⟩ : ∃ t : Fin cfg0.N, t.val = (i 0).val / 128 :=
    ⟨⟨(i 0).val / 128, lt_of_lt_of_eq (by omega : (i 0).val / 128 < 64) N_0.symm⟩, rfl⟩
  obtain ⟨-, -, -, -, -, -, -, -, -, -, -, -, -, -, -, -, -, -, -, -, -, e0, e1, -⟩ := idx_facts t
  refine ⟨t, flush0_10 t, ?_⟩
  rw [mem_blk10]
  intro a
  match a with
  | ⟨0, _⟩ => show win0_10.index t (0 : Fin 2) * 128 ≤ (i 0).val ∧ (i 0).val < win0_10.index t (0 : Fin 2) * 128 + 128; omega
  | ⟨1, _⟩ => show win0_10.index t (1 : Fin 2) * 512 ≤ (i 1).val ∧ (i 1).val < win0_10.index t (1 : Fin 2) * 512 + 512; omega

/-- After the run the hidden-state result holds the new hidden states of all nodes. -/
theorem final10 (c : Dev nD) :
    (dats m 0 c).arrAt 10 cfg0.N = hiddenArr (n := 8192) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 10 _ (fun t _ => flushed10_eq m c t) cover10

/-- After the run the cell-state result holds the new cell states of all nodes. -/
theorem final11 (c : Dev nD) :
    (dats m 0 c).arrAt 11 cfg0.N = cellArr (n := 8192) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 11 _ (fun t _ => flushed11_eq m c t) cover11

/-- Every weakly fair execution of the kernel program ends with the two results at the cell function of the arguments,
    the arguments unchanged. -/
theorem run : θ_run defs (onTc (τ := τ) (main (F := Ideal))) ⟨m, fun _ => 0, ρ⟩ fun r => ∀ c : Dev nD,
      r.2.mem ((c : Thread nD τ).loc main_v4_0) = hiddenArr (n := 8192) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v4_1) = cellArr (n := 8192) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final10 m c), (h c).2.1.trans (final11 m c), (h c).2.2⟩)
    (Cert.KernelIdeal.Value.run_blocks m ρ)

end Cert.KernelIdeal.RunSpec

end
-- ==== Proof.RefSpec.lean ====
/-
  The reference program's two results, as the cell of all 8192 nodes with the routed rows summed over the neighbours
  first.

  The reference routes every neighbour's hidden row (`(1 - e) · h` joined with `e · h` along the last axis), sums
  the routed rows over the eight neighbours from zero and contracts that sum once with `Uiou`; it contracts each
  neighbour's routed row with `Uf` for that neighbour's forget gate, written as `1 / (1 + exp (-z))`, which is the
  logistic function; and it sums `f_k · c_k` over the neighbours from zero.
-/
import proofs.«142199_j32933809225898_1_alg».proof.Proof.RefRead
import proofs.«142199_j32933809225898_1_alg».proof.Proof.Spec
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.ReferenceIdeal.RefSpec

open Cert.ReferenceIdeal Cert.ReferenceIdeal.Gen Cert.ReferenceIdeal.ReadPatched Idealize.ShloMosaic Idealize.ShloMosaic.ValueIdx Cert.TreeCell

section Stages

variable (x0 : (⟨S8192x512, .f32⟩ : BufTy).Contents (Elt Ideal)) (x1 x2 : (⟨S8192x8x512, .f32⟩ : BufTy).Contents (Elt Ideal)) (x3 : (⟨S8192x8x1, .f32⟩ : BufTy).Contents (Elt Ideal)) (x4 : (⟨S512x1536, .f32⟩ : BufTy).Contents (Elt Ideal)) (x5 : (⟨S512x512, .f32⟩ : BufTy).Contents (Elt Ideal)) (x6 : (⟨S1024x1536, .f32⟩ : BufTy).Contents (Elt Ideal)) (x7 : (⟨S1024x512, .f32⟩ : BufTy).Contents (Elt Ideal)) (x8 : (⟨S1536, .f32⟩ : BufTy).Contents (Elt Ideal)) (x9 : (⟨S512, .f32⟩ : BufTy).Contents (Elt Ideal))

/-- Node `r`'s eight edge labels. -/
private abbrev eRow (r : Fin 8192) : Fin 8 → EReal := fun k => x3 (ix3 r k (0 : Fin 1))
/-- Node `r`'s eight neighbours' hidden rows. -/
private abbrev hRow (r : Fin 8192) : Fin 8 → Fin 512 → EReal := fun k j => x1 (ix3 r k j)

/-! ## The routed rows -/

/-- `e · h` at `(r, k, j)`. -/
private theorem v3_at (r : Fin 8192) (k : Fin 8) (j : Fin 512) :
    val_main_v3 (F := Ideal) x1 x3 (ix3 r k j) = x3 (ix3 r k (0 : Fin 1)) * x1 (ix3 r k j) := by
  rw [val_main_v3_apply, val_main_v2_apply]
  have e : idx_main_v2 (ix3 r k j) = ix3 r k (0 : Fin 1) :=
    funext fun a => Fin.ext (by match a with | ⟨0, _⟩ => rfl | ⟨1, _⟩ => rfl | ⟨2, _⟩ => rfl)
  rw [e]
  rfl

/-- `(1 - e) · h` at `(r, k, j)`. -/
private theorem v7_at (r : Fin 8192) (k : Fin 8) (j : Fin 512) :
    val_main_v7 (F := Ideal) x1 x3 (ix3 r k j) = (1 - x3 (ix3 r k (0 : Fin 1))) * x1 (ix3 r k j) := by
  rw [val_main_v7_apply, val_main_v6_apply, val_main_v5_apply, val_main_v4_apply, val_main_cst_apply]
  have e : idx_main_v6 (ix3 r k j) = ix3 r k (0 : Fin 1) :=
    funext fun a => Fin.ext (by match a with | ⟨0, _⟩ => rfl | ⟨1, _⟩ => rfl | ⟨2, _⟩ => rfl)
  rw [e]
  show (Ideal.ofBits .f32 0x3F800000#32 - x3 (ix3 r k (0 : Fin 1))) * x1 (ix3 r k j) = _
  rw [Ideal.ofBits_one_f32]

/-- The two products joined along the last axis are the routed row: the first 512 entries come from `(1 - e) · h`,
    the last 512 from `e · h`. -/
private theorem v8_at (r : Fin 8192) (k : Fin 8) (d : Fin 1024) :
    val_main_v8 (F := Ideal) x1 x3 (ix3 r k d) = routed (eRow x3 r) (hRow x1 r) k d := by
  unfold val_main_v8
  by_cases hd : d.val < 512
  · rw [routed, dif_pos hd]
    refine (concatenate_pair_apply_left (t := S8192x8x1024) 2 _ _ concatenates_S8192x8x512_S8192x8x512_S8192x8x1024_d2
      (ix3 r k d) rfl (ix3 r k (⟨d.val, hd⟩ : Fin 512)) (fun b => ?_)).trans (v7_at x1 x3 r k ⟨d.val, hd⟩)
    match b with | ⟨0, _⟩ => rfl | ⟨1, _⟩ => rfl | ⟨2, _⟩ => rfl
  · rw [routed, dif_neg hd]
    refine (concatenate_pair_apply_right (t := S8192x8x1024) 2 _ _ concatenates_S8192x8x512_S8192x8x512_S8192x8x1024_d2
      (ix3 r k d) rfl rfl (ix3 r k (⟨d.val - 512, by omega⟩ : Fin 512)) (fun b hb => ?_) ?_).trans (v3_at x1 x3 r k ⟨d.val - 512, by omega⟩)
    · match b with
      | ⟨0, _⟩ => rfl
      | ⟨1, _⟩ => rfl
      | ⟨2, _⟩ => exact absurd rfl hb
    · show d.val - 512 + 512 = d.val
      omega

/-- The routed rows summed over the eight neighbours, from zero. -/
private theorem v9_at (r : Fin 8192) (d : Fin 1024) :
    val_main_v9 (F := Ideal) x1 x3 (ix2 r d) = 0 + ∑ k : Fin 8, routed (eRow x3 r) (hRow x1 r) k d := by
  rw [val_main_v9_apply, val_main_cst_0_apply]
  show Ideal.ofBits .f32 0x00000000#32 + _ = _
  rw [Ideal.ofBits_zero_f32]
  refine congrArg (0 + ·) (Finset.sum_congr rfl fun k _ => ?_)
  have e : idx_main_v9 (ix2 r d) k = ix3 r k d :=
    funext fun a => Fin.ext (by match a with | ⟨0, _⟩ => rfl | ⟨1, _⟩ => rfl | ⟨2, _⟩ => rfl)
  rw [e]
  exact v8_at x1 x3 r k d

/-- That sum contracted once with `Uiou`. -/
private theorem v10_at (r : Fin 8192) (o : Fin 1536) :
    val_main_v10 (F := Ideal) x1 x3 x6 (ix2 r o)
      = ∑ d : Fin 1024, (0 + ∑ k : Fin 8, routed (eRow x3 r) (hRow x1 r) k d) * x6 (ix2 d o) := by
  rw [val_main_v10_apply]
  refine Finset.sum_congr rfl fun d _ => ?_
  have el : lidx_main_v10 (ix2 r o) d = ix2 r d :=
    funext fun a => Fin.ext (by match a with | ⟨0, _⟩ => rfl | ⟨1, _⟩ => rfl)
  have er : ridx_main_v10 (ix2 r o) d = ix2 d o :=
    funext fun a => Fin.ext (by match a with | ⟨0, _⟩ => rfl | ⟨1, _⟩ => rfl)
  rw [el, er, v9_at]

/-! ## The gates' pre-activations -/

/-- The node block's projection by `Wf`. -/
private theorem v0_at (r : Fin 8192) (j : Fin 512) :
    val_main_v0 (F := Ideal) x0 x5 (ix2 r j) = ∑ q : Fin 512, x0 (ix2 r q) * x5 (ix2 q j) := by
  rw [val_main_v0_apply]
  refine Finset.sum_congr rfl fun q _ => ?_
  have el : lidx_main_v0 (ix2 r j) q = ix2 r q :=
    funext fun a => Fin.ext (by match a with | ⟨0, _⟩ => rfl | ⟨1, _⟩ => rfl)
  have er : ridx_main_v0 (ix2 r j) q = ix2 q j :=
    funext fun a => Fin.ext (by match a with | ⟨0, _⟩ => rfl | ⟨1, _⟩ => rfl)
  rw [el, er]

/-- The node block's projection by `Wiou`. -/
private theorem v1_at (r : Fin 8192) (o : Fin 1536) :
    val_main_v1 (F := Ideal) x0 x4 (ix2 r o) = ∑ q : Fin 512, x0 (ix2 r q) * x4 (ix2 q o) := by
  rw [val_main_v1_apply]
  refine Finset.sum_congr rfl fun q _ => ?_
  have el : lidx_main_v1 (ix2 r o) q = ix2 r q :=
    funext fun a => Fin.ext (by match a with | ⟨0, _⟩ => rfl | ⟨1, _⟩ => rfl)
  have er : ridx_main_v1 (ix2 r o) q = ix2 q o :=
    funext fun a => Fin.ext (by match a with | ⟨0, _⟩ => rfl | ⟨1, _⟩ => rfl)
  rw [el, er]

/-- The three gates' pre-activations of node `r`, the routed rows summed first. -/
private theorem v29_at (r : Fin 8192) (o : Fin 1536) :
    val_main_v29 (F := Ideal) x0 x1 x3 x4 x6 x8 (ix2 r o) = gatesArrSummedFirst (n := 8192) x0 x1 x3 x4 x6 x8 r o := by
  rw [val_main_v29_apply, val_main_v26_apply, val_main_v28_apply, val_main_v27_apply, v1_at, v10_at]
  have e : idx_main_v27 (idx_main_v28 (ix2 r o)) = ix1 o :=
    funext fun a => Fin.ext (by match a with | ⟨0, _⟩ => rfl)
  rw [e]
  rfl

/-- The input gate's columns are the first window. -/
private theorem v30_at (r : Fin 8192) (j : Fin 512) :
    val_main_v30 (F := Ideal) x0 x1 x3 x4 x6 x8 (ix2 r j)
      = gatesArrSummedFirst (n := 8192) x0 x1 x3 x4 x6 x8 r ⟨j.val, by omega⟩ := by
  rw [val_main_v30_apply]
  have e : idx_main_v30 (ix2 r j) = ix2 r (⟨j.val, by omega⟩ : Fin 1536) :=
    funext fun a => Fin.ext (by match a with | ⟨0, _⟩ => rfl | ⟨1, _⟩ => rfl)
  rw [e, v29_at]

/-- The output gate's columns are the second window. -/
private theorem v31_at (r : Fin 8192) (j : Fin 512) :
    val_main_v31 (F := Ideal) x0 x1 x3 x4 x6 x8 (ix2 r j)
      = gatesArrSummedFirst (n := 8192) x0 x1 x3 x4 x6 x8 r ⟨j.val + 512, by omega⟩ := by
  rw [val_main_v31_apply]
  have e : idx_main_v31 (ix2 r j) = ix2 r (⟨j.val + 512, by omega⟩ : Fin 1536) :=
    funext fun a => Fin.ext (by
      match a with
      | ⟨0, _⟩ => rfl
      | ⟨1, _⟩ => show 512 + j.val = j.val + 512; omega)
  rw [e, v29_at]

/-- The update's columns are the third window. -/
private theorem v32_at (r : Fin 8192) (j : Fin 512) :
    val_main_v32 (F := Ideal) x0 x1 x3 x4 x6 x8 (ix2 r j)
      = gatesArrSummedFirst (n := 8192) x0 x1 x3 x4 x6 x8 r ⟨j.val + 1024, by omega⟩ := by
  rw [val_main_v32_apply]
  have e : idx_main_v32 (ix2 r j) = ix2 r (⟨j.val + 1024, by omega⟩ : Fin 1536) :=
    funext fun a => Fin.ext (by
      match a with
      | ⟨0, _⟩ => rfl
      | ⟨1, _⟩ => show 1024 + j.val = j.val + 1024; omega)
  rw [e, v29_at]

/-- `1 / (1 + exp (-z))` on the first window is the logistic of the input gate. -/
private theorem v38_at (r : Fin 8192) (j : Fin 512) :
    val_main_v38 (F := Ideal) x0 x1 x3 x4 x6 x8 (ix2 r j)
      = Ideal.logistic (gatesArrSummedFirst (n := 8192) x0 x1 x3 x4 x6 x8 r ⟨j.val, by omega⟩) := by
  rw [val_main_v38_apply, val_main_v37_apply, val_main_cst_5_apply, val_main_v36_apply, val_main_v35_apply,
    val_main_cst_4_apply, val_main_v34_apply, val_main_v33_apply, v30_at]
  show Ideal.div (Ideal.ofBits .f32 0x3F800000#32) (Ideal.ofBits .f32 0x3F800000#32 + Ideal.exp (- _)) = _
  rw [Ideal.ofBits_one_f32]
  rfl

/-- `1 / (1 + exp (-z))` on the second window is the logistic of the output gate. -/
private theorem v44_at (r : Fin 8192) (j : Fin 512) :
    val_main_v44 (F := Ideal) x0 x1 x3 x4 x6 x8 (ix2 r j)
      = Ideal.logistic (gatesArrSummedFirst (n := 8192) x0 x1 x3 x4 x6 x8 r ⟨j.val + 512, by omega⟩) := by
  rw [val_main_v44_apply, val_main_v43_apply, val_main_cst_7_apply, val_main_v42_apply, val_main_v41_apply,
    val_main_cst_6_apply, val_main_v40_apply, val_main_v39_apply, v31_at]
  show Ideal.div (Ideal.ofBits .f32 0x3F800000#32) (Ideal.ofBits .f32 0x3F800000#32 + Ideal.exp (- _)) = _
  rw [Ideal.ofBits_one_f32]
  rfl

/-- The hyperbolic tangent of the update. -/
private theorem v45_at (r : Fin 8192) (j : Fin 512) :
    val_main_v45 (F := Ideal) x0 x1 x3 x4 x6 x8 (ix2 r j)
      = Ideal.tanh (gatesArrSummedFirst (n := 8192) x0 x1 x3 x4 x6 x8 r ⟨j.val + 1024, by omega⟩) := by
  rw [val_main_v45_apply, v32_at]
  rfl

/-! ## The forget gates -/

/-- Neighbour `k`'s routed row contracted with `Uf`. -/
private theorem v11_at (r : Fin 8192) (k : Fin 8) (j : Fin 512) :
    val_main_v11 (F := Ideal) x1 x3 x7 (ix3 r k j)
      = ∑ d : Fin 1024, routed (eRow x3 r) (hRow x1 r) k d * x7 (ix2 d j) := by
  rw [val_main_v11_apply]
  refine Finset.sum_congr rfl fun d _ => ?_
  have el : lidx_main_v11 (ix3 r k j) d = ix3 r k d :=
    funext fun a => Fin.ext (by match a with | ⟨0, _⟩ => rfl | ⟨1, _⟩ => rfl | ⟨2, _⟩ => rfl)
  have er : ridx_main_v11 (ix3 r k j) d = ix2 d j :=
    funext fun a => Fin.ext (by match a with | ⟨0, _⟩ => rfl | ⟨1, _⟩ => rfl)
  rw [el, er, v8_at]

/-- Neighbour `k`'s forget gate before the logistic. -/
private theorem v17_at (r : Fin 8192) (k : Fin 8) (j : Fin 512) :
    val_main_v17 (F := Ideal) x0 x1 x3 x5 x7 x9 (ix3 r k j)
      = ((∑ q : Fin 512, x0 (ix2 r q) * x5 (ix2 q j)) + ∑ d : Fin 1024, routed (eRow x3 r) (hRow x1 r) k d * x7 (ix2 d j))
          + x9 (ix1 j) := by
  rw [val_main_v17_apply, val_main_v14_apply, val_main_v13_apply, val_main_v12_apply, val_main_v16_apply,
    val_main_v15_apply, v11_at]
  have e1 : idx_main_v12 (idx_main_v13 (ix3 r k j)) = ix2 r j :=
    funext fun a => Fin.ext (by match a with | ⟨0, _⟩ => rfl | ⟨1, _⟩ => rfl)
  have e2 : idx_main_v15 (idx_main_v16 (ix3 r k j)) = ix1 j :=
    funext fun a => Fin.ext (by match a with | ⟨0, _⟩ => rfl)
  rw [e1, e2, v0_at]
  rfl

/-- `1 / (1 + exp (-z))` there is neighbour `k`'s forget gate. -/
private theorem v23_at (r : Fin 8192) (k : Fin 8) (j : Fin 512) :
    val_main_v23 (F := Ideal) x0 x1 x3 x5 x7 x9 (ix3 r k j)
      = forget (fun q => x0 (ix2 r q)) (eRow x3 r) (hRow x1 r) (fun q j => x5 (ix2 q j)) (fun d j => x7 (ix2 d j))
          (fun j => x9 (ix1 j)) k j := by
  rw [val_main_v23_apply, val_main_v22_apply, val_main_cst_2_apply, val_main_v21_apply, val_main_v20_apply,
    val_main_cst_1_apply, val_main_v19_apply, val_main_v18_apply, v17_at]
  show Ideal.div (Ideal.ofBits .f32 0x3F800000#32) (Ideal.ofBits .f32 0x3F800000#32 + Ideal.exp (- _)) = _
  rw [Ideal.ofBits_one_f32]
  rfl

/-- The forget gates times the neighbours' cell rows, summed over the neighbours (the leading zero dropped). -/
private theorem v25_at (r : Fin 8192) (j : Fin 512) :
    val_main_v25 (F := Ideal) x0 x1 x2 x3 x5 x7 x9 (ix2 r j)
      = ∑ k : Fin 8, forget (fun q => x0 (ix2 r q)) (eRow x3 r) (hRow x1 r) (fun q j => x5 (ix2 q j))
          (fun d j => x7 (ix2 d j)) (fun j => x9 (ix1 j)) k j * x2 (ix3 r k j) := by
  rw [val_main_v25_apply, val_main_cst_3_apply]
  show Ideal.ofBits .f32 0x00000000#32 + _ = _
  rw [Ideal.ofBits_zero_f32, zero_add]
  refine Finset.sum_congr rfl fun k _ => ?_
  have e : idx_main_v25 (ix2 r j) k = ix3 r k j :=
    funext fun a => Fin.ext (by match a with | ⟨0, _⟩ => rfl | ⟨1, _⟩ => rfl | ⟨2, _⟩ => rfl)
  rw [e, val_main_v24_apply, v23_at]
  rfl

/-- The cell-state result at `(r, j)`. -/
private theorem v47_at (r : Fin 8192) (j : Fin 512) :
    val_main_v47 (F := Ideal) x0 x1 x2 x3 x4 x5 x6 x7 x8 x9 (ix2 r j)
      = cellArrSummedFirst (n := 8192) x0 x1 x2 x3 x4 x5 x6 x7 x8 x9 (ix2 r j) := by
  rw [val_main_v47_apply, val_main_v46_apply, v38_at, v45_at, v25_at]
  rfl

end Stages

/-- The reference's cell-state result is the new cell states of all nodes, routed rows summed first. -/
theorem cell_eq (x0 : (⟨S8192x512, .f32⟩ : BufTy).Contents (Elt Ideal)) (x1 x2 : (⟨S8192x8x512, .f32⟩ : BufTy).Contents (Elt Ideal)) (x3 : (⟨S8192x8x1, .f32⟩ : BufTy).Contents (Elt Ideal)) (x4 : (⟨S512x1536, .f32⟩ : BufTy).Contents (Elt Ideal)) (x5 : (⟨S512x512, .f32⟩ : BufTy).Contents (Elt Ideal)) (x6 : (⟨S1024x1536, .f32⟩ : BufTy).Contents (Elt Ideal)) (x7 : (⟨S1024x512, .f32⟩ : BufTy).Contents (Elt Ideal)) (x8 : (⟨S1536, .f32⟩ : BufTy).Contents (Elt Ideal)) (x9 : (⟨S512, .f32⟩ : BufTy).Contents (Elt Ideal)) :
    val_main_v47 (F := Ideal) x0 x1 x2 x3 x4 x5 x6 x7 x8 x9 = cellArrSummedFirst (n := 8192) x0 x1 x2 x3 x4 x5 x6 x7 x8 x9 := by
  funext i
  obtain ⟨r, j, rfl⟩ : ∃ (r : Fin 8192) (j : Fin 512), i = ix2 r j := ⟨i 0, i 1, eq_ix2 i⟩
  exact v47_at x0 x1 x2 x3 x4 x5 x6 x7 x8 x9 r j

/-- The reference's hidden-state result is the new hidden states of all nodes, routed rows summed first. -/
theorem hidden_eq (x0 : (⟨S8192x512, .f32⟩ : BufTy).Contents (Elt Ideal)) (x1 x2 : (⟨S8192x8x512, .f32⟩ : BufTy).Contents (Elt Ideal)) (x3 : (⟨S8192x8x1, .f32⟩ : BufTy).Contents (Elt Ideal)) (x4 : (⟨S512x1536, .f32⟩ : BufTy).Contents (Elt Ideal)) (x5 : (⟨S512x512, .f32⟩ : BufTy).Contents (Elt Ideal)) (x6 : (⟨S1024x1536, .f32⟩ : BufTy).Contents (Elt Ideal)) (x7 : (⟨S1024x512, .f32⟩ : BufTy).Contents (Elt Ideal)) (x8 : (⟨S1536, .f32⟩ : BufTy).Contents (Elt Ideal)) (x9 : (⟨S512, .f32⟩ : BufTy).Contents (Elt Ideal)) :
    val_main_v49 (F := Ideal) x0 x1 x2 x3 x4 x5 x6 x7 x8 x9 = hiddenArrSummedFirst (n := 8192) x0 x1 x2 x3 x4 x5 x6 x7 x8 x9 := by
  funext i
  obtain ⟨r, j, rfl⟩ : ∃ (r : Fin 8192) (j : Fin 512), i = ix2 r j := ⟨i 0, i 1, eq_ix2 i⟩
  rw [val_main_v49_apply, val_main_v48_apply, v44_at, v47_at]
  rfl

end Cert.ReferenceIdeal.RefSpec

end
-- ==== Proof.Finite.lean ====
/-
  From the precondition to real numbers: every entry of the neighbours' hidden states, of the edge labels and of
  `Uiou` is a real number.

  The precondition says, array by array, that every entry's absolute value is below plus infinity; an extended real
  whose absolute value is below plus infinity is neither infinity, hence a real number.
-/
import proofs.«142199_j32933809225898_1_alg».proof.Defs
import proofs.«142199_j32933809225898_1_alg».proof.Proof.Gen.Pre_finite_inputs
import proofs.«142199_j32933809225898_1_alg».proof.Proof.Spec
import Idealize.ShloMosaic.Lib.ReduceAll
import Idealize.ShloMosaic.Lib.ValueIdx
import Idealize.ShloMosaic.Lib.IdealHost

noncomputable section

namespace Cert.Finite

open Idealize.ShloMosaic Idealize.SL.Sem Cert.TreeCell

/-- The f32 pattern with all exponent bits set, sign and significand zero, denotes plus infinity. -/
private theorem ofBits_inf : Ideal.ofBits .f32 0x7F800000#32 = (⊤ : EReal) := by
  simp [Ideal.ofBits, Ideal.ieee]

/-- An extended real whose absolute value `max x (-x)` is below plus infinity is a real number: at either infinity
    the absolute value is plus infinity. -/
private theorem isReal_of_abs_lt_top (x : EReal) (h : max x (-x) < ⊤) : IsReal x := by
  induction x using EReal.rec with
  | bot => simp at h
  | coe r => exact ⟨r, rfl⟩
  | top => simp at h

/-- The rank-0 shape has one index. -/
private instance : Subsingleton Cert.Pre_finite_inputs.S_.Idx := ⟨fun a b => funext fun d => d.elim0⟩

/-- An array of any shape whose test "every entry's absolute value is below plus infinity", reduced by `and` over
    all axes, came out 1 has real entries: the reduction being 1 gives the comparison 1 at each index, the
    comparison there is `|x i| < ⊤`, and such an `x i` is real. -/
private theorem real_of_all {s : Shape} {axes : List (Fin s.rank)} (x : FVec Ideal s .f32)
    (hb : Cert.Pre_finite_inputs.S_.BroadcastsInDim s ![]) (hr : s.ReducesTo axes Cert.Pre_finite_inputs.S_)
    (hu : 0 < Cert.Pre_finite_inputs.S_.numel) (j : Cert.Pre_finite_inputs.S_.Idx)
    (e : Host.reduce IntOp.andi
          (cmpf .olt (Host.absf x) (broadcastInDim s ![] hb (constant Cert.Pre_finite_inputs.S_ .f32 0x7F800000#32)))
          (constantI Cert.Pre_finite_inputs.S_ 1 1#1) hr hu j = 1#1) (i : s.Idx) : IsReal (x i) := by
  have h := Host.reduce_andi_all _ _ hr hu j e i
  refine isReal_of_abs_lt_top (x i) ?_
  -- the comparison at index `i`, with the broadcast scalar read there
  have h' : Ideal.cmp .olt (max (x i) (-(x i))) (Ideal.ofBits .f32 0x7F800000#32) = 1#1 := h
  rw [ofBits_inf] at h'
  by_contra hn
  have h0 : Ideal.cmp .olt (max (x i) (-(x i))) (⊤ : EReal) = 0#1 := by
    unfold Ideal.cmp
    rw [decide_eq_false hn]
    rfl
  rw [h0] at h'
  exact absurd h' (by decide)

/-- Under the precondition the neighbours' hidden states, the edge labels and `Uiou` hold real numbers. -/
theorem real_inputs (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg6) i)) := by
  -- the precondition at the one index of its rank-0 result: a left-nested `and` of the ten per-array tests
  have h := congrFun (hpre c) ValueIdx.ix0
  dsimp only [Cert.Pre_finite_inputs.fn, Cert.Pre_finite_inputs.fn_part1, Cert.Pre_finite_inputs.fn_part2, andi] at h
  -- peel the conjunction from the outside in; the tests of arguments 6, 3 and 1 are the right conjuncts met on the way
  obtain ⟨h43, -⟩ := IntOp.andi_eq_one.1 h
  obtain ⟨h38, -⟩ := IntOp.andi_eq_one.1 h43
  obtain ⟨h33, -⟩ := IntOp.andi_eq_one.1 h38
  obtain ⟨h28, h32⟩ := IntOp.andi_eq_one.1 h33
  obtain ⟨h23, -⟩ := IntOp.andi_eq_one.1 h28
  obtain ⟨h18, -⟩ := IntOp.andi_eq_one.1 h23
  obtain ⟨h13, h17⟩ := IntOp.andi_eq_one.1 h18
  obtain ⟨h8, -⟩ := IntOp.andi_eq_one.1 h13
  obtain ⟨-, h7⟩ := IntOp.andi_eq_one.1 h8
  exact ⟨real_of_all _ _ _ _ _ h7, real_of_all _ _ _ _ _ h17, real_of_all _ _ _ _ _ h32⟩

end Cert.Finite

end
-- ==== Proof.lean ====
/-
  A tree-LSTM cell with label-routed neighbours: the kernel against its reference, over the extended reals.

  For each of 8192 nodes the cell takes the node's input row, eight neighbours' hidden and cell rows and one edge
  label per neighbour. A neighbour's hidden row is routed into the first or second half of a row of 1024 entries,
  `(1 - e) · h` beside `e · h`. The kernel works on blocks of 128 nodes: for each neighbour in turn it contracts the
  routed row with `Uiou` and adds the result to an accumulator that starts at zero, and contracts it with `Uf` for
  that neighbour's forget gate. The reference sums the routed rows over the neighbours first and contracts the sum
  with `Uiou` once. Everything else is the same arithmetic on both sides: a change of float format is the identity
  over the extended reals, a matrix product into a zero accumulator is the plain sum of products, the logistic
  function is `1 / (1 + exp (-z))` on both sides, and sums of eight terms taken in order are finite sums.

  So the two sides differ by one law: `Σ_d (Σ_k r_k[d]) · U[d, o] = Σ_k Σ_d r_k[d] · U[d, o]`. A product distributes
  over a finite sum of REAL numbers, and not over infinities of both signs; the precondition makes the labels, the
  hidden rows and `Uiou` real, and that is the only place it is used.

  Proof/Spec.lean states the cell once, for one node and for arrays of nodes, in both orders of summation, and
  proves the law. Proof/KLayout.lean, KMatmul.lean and KCell.lean read the kernel body's stores at an index of the
  block; Proof/KRun.lean carries the 64 blocks to the whole result arrays. Proof/RefSpec.lean reads the reference's
  results stage by stage. Proof/Finite.lean takes real entries out of the precondition.
-/
import proofs.«142199_j32933809225898_1_alg».proof.Defs
import proofs.«142199_j32933809225898_1_alg».proof.Proof.Gen.Kernel
import proofs.«142199_j32933809225898_1_alg».proof.Proof.Gen.Kernel.Skeleton
import proofs.«142199_j32933809225898_1_alg».proof.Proof.Gen.Kernel.Launch
import proofs.«142199_j32933809225898_1_alg».proof.Proof.Gen.Kernel.Points
import proofs.«142199_j32933809225898_1_alg».proof.Proof.Gen.Kernel.Frame
import proofs.«142199_j32933809225898_1_alg».proof.Proof.Gen.KernelIdeal
import proofs.«142199_j32933809225898_1_alg».proof.Proof.Gen.KernelIdeal.Skeleton
import proofs.«142199_j32933809225898_1_alg».proof.Proof.Gen.KernelIdeal.Launch
import proofs.«142199_j32933809225898_1_alg».proof.Proof.Gen.KernelIdeal.Points
import proofs.«142199_j32933809225898_1_alg».proof.Proof.Gen.KernelIdeal.Frame
import proofs.«142199_j32933809225898_1_alg».proof.Proof.Gen.KernelIdeal.Value
import proofs.«142199_j32933809225898_1_alg».proof.Proof.Gen.ReferenceIdeal
import proofs.«142199_j32933809225898_1_alg».proof.Proof.Gen.Pre_finite_inputs
import proofs.«142199_j32933809225898_1_alg».proof.Proof.RefRun
import proofs.«142199_j32933809225898_1_alg».proof.Proof.RefRead
import proofs.«142199_j32933809225898_1_alg».proof.Proof.Spec
import proofs.«142199_j32933809225898_1_alg».proof.Proof.KRun
import proofs.«142199_j32933809225898_1_alg».proof.Proof.RefSpec
import proofs.«142199_j32933809225898_1_alg».proof.Proof.Finite
import Idealize.ShloMosaic.Adequacy
import Idealize.ShloMosaic.Init

noncomputable section

namespace Cert.Proof

open Idealize.ShloMosaic Idealize.ShloMosaic.TcCoe Idealize.SL.Sem Cert.TreeCell

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the two results dropped. -/
theorem frame_referenceIdeal : Cert.frame_ReferenceIdeal := fun m ρ _ =>
  (θ_run Cert.ReferenceIdeal.defs _ _).mono (fun _ h c => (h c).2.2) (Cert.ReferenceIdeal.RunPatched.run (F := Ideal) m ρ)

/-- The idealization rewrote no operation. -/
theorem preserves : Cert.preserves_Kernel_KernelIdeal := trivial

/-- Both programs end with the new hidden and cell states of all nodes: the kernel's blocks are the cell with the
    neighbours summed after the contraction, the reference's stages the cell with the routed rows summed first, and for
    real labels, hidden rows and `Uiou` the two are one function. -/
theorem algebraic : Cert.algebraic_KernelIdeal_ReferenceIdeal := by
  intro m ρ m' ρ' hpre hagree
  refine ⟨_, _, Cert.KernelIdeal.RunSpec.run m ρ, ?_⟩
  refine (θ_run Cert.ReferenceIdeal.defs _ _).mono (fun _ h c => ⟨?_, ?_, (h c).2.2⟩)
    (Cert.ReferenceIdeal.RunPatched.run (F := Ideal) m' ρ')
  · obtain ⟨hh, he, hu⟩ := Cert.Finite.real_inputs m hpre c
    rw [(h c).1, Cert.ReferenceIdeal.ReadPatched.val_main_v49_eq, Cert.ReferenceIdeal.RefSpec.hidden_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]
    exact hiddenArrSummedFirst_eq _ _ _ _ _ _ _ _ _ _ he hh hu
  · obtain ⟨hh, he, hu⟩ := Cert.Finite.real_inputs m hpre c
    rw [(h c).2.1, Cert.ReferenceIdeal.ReadPatched.val_main_v47_eq, Cert.ReferenceIdeal.RefSpec.cell_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]
    exact cellArrSummedFirst_eq _ _ _ _ _ _ _ _ _ _ he hh hu

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
